-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192x3 : Shape := ⟨3, ![1024, 8192, 3]⟩
abbrev S40x512 : Shape := ⟨2, ![40, 512]⟩
abbrev S40 : Shape := ⟨1, ![40]⟩
abbrev S_ : Shape := ⟨0, ![]⟩

class Facts : Prop where
  bcast_S_S1024x8192x3 : S_.BroadcastsInDim S1024x8192x3 (![] : Fin 0 → Fin S1024x8192x3.rank)
  reducesTo_S1024x8192x3_S_d0_1_2 : S1024x8192x3.ReducesTo [0, 1, 2] S_
  h_S_ : 0 < S_.numel
  bcast_S_S40x512 : S_.BroadcastsInDim S40x512 (![] : Fin 0 → Fin S40x512.rank)
  reducesTo_S40x512_S_d0_1 : S40x512.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S1024x8192x3 .f32) (main_arg1 : FVec F S40x512 .f32) (main_arg2 : FVec F S40 .f32) : IVec S_ 1 :=
  let main_v0 : FVec F S1024x8192x3 .f32 := Host.absf main_arg0
  let main_cst : FVec F S_ .f32 := constant S_ .f32 0x7F800000#32
  let main_v1 : FVec F S1024x8192x3 .f32 := broadcastInDim S1024x8192x3 ![] bcast_S_S1024x8192x3 main_cst
  let main_v2 : IVec S1024x8192x3 1 := cmpf .olt main_v0 main_v1
  let main_c : IVec S_ 1 := constantI S_ 1 1#1
  let main_v3 : IVec S_ 1 := (fun x v => Host.reduce IntOp.andi x v reducesTo_S1024x8192x3_S_d0_1_2 h_S_) main_v2 main_c
  let main_v4 : FVec F S40x512 .f32 := Host.absf main_arg1
  let main_cst_0 : FVec F S_ .f32 := constant S_ .f32 0x7F800000#32
  let main_v5 : FVec F S40x512 .f32 := broadcastInDim S40x512 ![] bcast_S_S40x512 main_cst_0
  let main_v6 : IVec S40x512 1 := cmpf .olt main_v4 main_v5
  let main_c_1 : IVec S_ 1 := constantI S_ 1 1#1
  let main_v7 : IVec S_ 1 := (fun x v => Host.reduce IntOp.andi x v reducesTo_S40x512_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S1024x8192x3 : Shape := ⟨3, ![1024, 8192, 3]⟩
abbrev S40x512 : Shape := ⟨2, ![40, 512]⟩
abbrev S40 : Shape := ⟨1, ![40]⟩
abbrev S1024x40 : Shape := ⟨2, ![1024, 40]⟩
abbrev S256x1024x3 : Shape := ⟨3, ![256, 1024, 3]⟩
abbrev S256x40 : Shape := ⟨2, ![256, 40]⟩
abbrev S256x512 : Shape := ⟨2, ![256, 512]⟩
abbrev S256x1024 : Shape := ⟨2, ![256, 1024]⟩
abbrev S256x1024x1 : Shape := ⟨3, ![256, 1024, 1]⟩
abbrev S256x1024x8 : Shape := ⟨3, ![256, 1024, 8]⟩
abbrev S256x8x8 : Shape := ⟨3, ![256, 8, 8]⟩
abbrev S256x64 : Shape := ⟨2, ![256, 64]⟩
abbrev S512x40 : Shape := ⟨2, ![512, 40]⟩
abbrev S1x40 : Shape := ⟨2, ![1, 40]⟩

abbrev nBuf : Space → Nat
  | .hbm => 4
  | .vmem => 7
  | .smem => 0
  | _ => 0

abbrev bufTy : (tb : Table) → Fin (tcTables nBuf tb) → BufTy
  | .hbm, ⟨0, _⟩ => ⟨S1024x8192x3, .f32⟩
  | .hbm, ⟨1, _⟩ => ⟨S40x512, .f32⟩
  | .hbm, ⟨2, _⟩ => ⟨S40, .f32⟩
  | .hbm, ⟨3, _⟩ => ⟨S1024x40, .f32⟩
  | .local _ .vmem, ⟨0, _⟩ => ⟨S256x1024x3, .f32⟩
  | .local _ .vmem, ⟨1, _⟩ => ⟨S256x1024x3, .f32⟩
  | .local _ .vmem, ⟨2, _⟩ => ⟨S40x512, .f32⟩
  | .local _ .vmem, ⟨3, _⟩ => ⟨S40, .f32⟩
  | .local _ .vmem, ⟨4, _⟩ => ⟨S256x40, .f32⟩
  | .local _ .vmem, ⟨5, _⟩ => ⟨S256x40, .f32⟩
  | .local _ .vmem, ⟨6, _⟩ => ⟨S256x512, .f32⟩
  | _, _ => ⟨S1024x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32_22 : BitVec 32 := 7#32
  let v94 : BitVec 1 := Scalar.cmpi .eq arg1 c7_i32_22
  let v95 : BitVec 32 := Scalar.extui v94
  let c0_i32_23 : BitVec 32 := 0#32
  let v96 : BitVec 1 := Scalar.cmpi .ne v95 c0_i32_23
  v96

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S40x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024x3_S256x1024x3_0_0_0 : ∀ a, (![0, 0, 0] : Fin 3 → Nat) a + S256x1024x3.size a ≤ S256x1024x3.size a
  h_S256x1024x3 : 0 < S256x1024x3.numel
  reduces_S256x1024x3_S256x1024 : S256x1024x3.Reduces [2] S256x1024
  natLt_1_32 : 1 < 32
  bitsLt_bf16_f32 : FTy.bits .bf16 < FTy.bits .f32
  shapeCasts_S256x1024_S256x1024x1 : S256x1024.ShapeCasts S256x1024x1
  iota_S256x1024x8_d2_w32 : S256x1024x8.Iotas .tc 32 [2]
  slices_S256x1024x3_o0_0_0_S256x1024x1 : S256x1024x3.Slices ![0, 0, 0] S256x1024x1
  slices_S256x1024x3_o0_0_1_S256x1024x1 : S256x1024x3.Slices ![0, 0, 1] S256x1024x1
  slices_S256x1024x3_o0_0_2_S256x1024x1 : S256x1024x3.Slices ![0, 0, 2] S256x1024x1
  broadcasts_S256x1024x1_S256x1024x8 : S256x1024x1.Broadcasts S256x1024x8
  slices_S256x1024x8_o0_0_0_S256x1024x1 : S256x1024x8.Slices ![0, 0, 0] S256x1024x1
  shapeCasts_S256x8x8_S256x64 : S256x8x8.ShapeCasts S256x64
  slices_S256x1024x8_o0_0_1_S256x1024x1 : S256x1024x8.Slices ![0, 0, 1] S256x1024x1
  slices_S256x1024x8_o0_0_2_S256x1024x1 : S256x1024x8.Slices ![0, 0, 2] S256x1024x1
  slices_S256x1024x8_o0_0_3_S256x1024x1 : S256x1024x8.Slices ![0, 0, 3] S256x1024x1
  slices_S256x1024x8_o0_0_4_S256x1024x1 : S256x1024x8.Slices ![0, 0, 4] S256x1024x1
  slices_S256x1024x8_o0_0_5_S256x1024x1 : S256x1024x8.Slices ![0, 0, 5] S256x1024x1
  slices_S256x1024x8_o0_0_6_S256x1024x1 : S256x1024x8.Slices ![0, 0, 6] S256x1024x1
  slices_S256x1024x8_o0_0_7_S256x1024x1 : S256x1024x8.Slices ![0, 0, 7] S256x1024x1
  concatenates_S256x64_S256x64_S256x64_S256x64_S256x64_S256x64_S256x64_S256x64_S256x512_d1 : Shape.Concatenates [S256x64, S256x64, S256x64, S256x64, S256x64, S256x64, S256x64, S256x64] S256x512 1
  inb_S40x512_S40x512_0_0 : ∀ a, (![0, 0] : Fin 2 → Nat) a + S40x512.size a ≤ S40x512.size a
  h_S40x512 : 0 < S40x512.numel
  transposes_S40x512_p1_0_S512x40 : S40x512.Transposes [1, 0] S512x40
  inb_S40_S40_0 : ∀ a, (![0] : Fin 1 → Nat) a + S40.size a ≤ S40.size a
  h_S40 : 0 < S40.numel
  shapeCasts_S40_S1x40 : S40.ShapeCasts S1x40
  broadcasts_S1x40_S256x40 : S1x40.Broadcasts S256x40
  inb_S256x40_S256x40_0_0 : ∀ a, (![0, 0] : Fin 2 → Nat) a + S256x40.size a ≤ S256x40.size a
  h_S256x40 : 0 < S256x40.numel
  dot_S256x1024x8_S256x1024x8_S256x8x8_1_1_2_2_0_0_wf : DotDims.WF S256x1024x8 S256x1024x8 S256x8x8 [1] [1] [2] [2] [0] [0]
  dot_S256x512_S512x40_S256x40_1_0_0_1_n_n_wf : DotDims.WF S256x512 S512x40 S256x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024x3.size a ≤ S1024x8192x3.size a
  hwx0_0 : ∀ i : grid0.Coords, EltTy.bits .f32 = 32 ∨ (Rect.block (s := S1024x8192x3) S256x1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x512.size a ≤ S40x512.size a
  hwx0_1 : ∀ i : grid0.Coords, EltTy.bits .f32 = 32 ∨ (Rect.block (s := S40x512) S40x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x40.size a ≤ S1024x40.size a
  hwx0_3 : ∀ i : grid0.Coords, EltTy.bits .f32 = 32 ∨ (Rect.block (s := S1024x40) S256x40.size (cc0_transform_3 i) (hinb0_3 i)).WholeWords (EltTy.packing .f32)

variable [Facts₀]

def dot_S256x1024x8_S256x1024x8_S256x8x8_1_1_2_2_0_0 : DotDims S256x1024x8 S256x1024x8 S256x8x8 where
  lhsContracting := [1]
  rhsContracting := [1]
  lhsNonContracting := [2]
  rhsNonContracting := [2]
  lhsBatch := [0]
  rhsBatch := [0]
  wf := dot_S256x1024x8_S256x1024x8_S256x8x8_1_1_2_2_0_0_wf
def dot_S256x512_S512x40_S256x40_1_0_0_1_n_n : DotDims S256x512 S512x40 S256x40 where
  lhsContracting := [1]
  rhsContracting := [0]
  lhsNonContracting := [0]
  rhsNonContracting := [1]
  lhsBatch := []
  rhsBatch := []
  wf := dot_S256x512_S512x40_S256x40_1_0_0_1_n_n_wf

abbrev win0_0 : Pipeline.Window sig grid0 :=
  Pipeline.Window.ofSpec (Memref.whole main_arg0) S256x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S40x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x8192x3 : Shape := ⟨3, ![1024, 8192, 3]⟩
abbrev S40x512 : Shape := ⟨2, ![40, 512]⟩
abbrev S40 : Shape := ⟨1, ![40]⟩
abbrev S_ : Shape := ⟨0, ![]⟩
abbrev S1024x8192 : Shape := ⟨2, ![1024, 8192]⟩
abbrev S1024x8192x1 : Shape := ⟨3, ![1024, 8192, 1]⟩
abbrev S1024 : Shape := ⟨1, ![1024]⟩
abbrev S1024x1 : Shape := ⟨2, ![1024, 1]⟩
abbrev S8388608 : Shape := ⟨1, ![8388608]⟩
abbrev S524288 : Shape := ⟨1, ![524288]⟩
abbrev S8388608x1 : Shape := ⟨2, ![8388608, 1]⟩
abbrev S1024x512 : Shape := ⟨2, ![1024, 512]⟩
abbrev S512x40 : Shape := ⟨2, ![512, 40]⟩
abbrev S1024x40 : Shape := ⟨2, ![1024, 40]⟩
abbrev S1x40 : Shape := ⟨2, ![1, 40]⟩

abbrev nBuf : Space → Nat
  | .hbm => 65
  | .vmem => 0
  | .smem => 0
  | _ => 0

abbrev bufTy : (tb : Table) → Fin (tcTables nBuf tb) → BufTy
  | .hbm, ⟨0, _⟩ => ⟨S1024x8192x3, .f32⟩
  | .hbm, ⟨1, _⟩ => ⟨S40x512, .f32⟩
  | .hbm, ⟨2, _⟩ => ⟨S40, .f32⟩
  | .hbm, ⟨3, _⟩ => ⟨S_, .f32⟩
  | .hbm, ⟨4, _⟩ => ⟨S1024x8192x3, .f32⟩
  | .hbm, ⟨5, _⟩ => ⟨S1024x8192x3, .f32⟩
  | .hbm, ⟨6, _⟩ => ⟨S_, .f32⟩
  | .hbm, ⟨7, _⟩ => ⟨S1024x8192x3, .f32⟩
  | .hbm, ⟨8, _⟩ => ⟨S1024x8192x3, .f32⟩
  | .hbm, ⟨9, _⟩ => ⟨S1024x8192x3, .f32⟩
  | .hbm, ⟨10, _⟩ => ⟨S1024x8192x3, .i32⟩
  | .hbm, ⟨11, _⟩ => ⟨S_, .i32⟩
  | .hbm, ⟨12, _⟩ => ⟨S1024x8192x3, .i32⟩
  | .hbm, ⟨13, _⟩ => ⟨S1024x8192x3, .i32⟩
  | .hbm, ⟨14, _⟩ => ⟨S_, .f32⟩
  | .hbm, ⟨15, _⟩ => ⟨S1024x8192x3, .f32⟩
  | .hbm, ⟨16, _⟩ => ⟨S1024x8192x3, .i1⟩
  | .hbm, ⟨17, _⟩ => ⟨S_, .f32⟩
  | .hbm, ⟨18, _⟩ => ⟨S1024x8192x3, .f32⟩
  | .hbm, ⟨19, _⟩ => ⟨S1024x8192x3, .i1⟩
  | .hbm, ⟨20, _⟩ => ⟨S1024x8192x3, .i1⟩
  | .hbm, ⟨21, _⟩ => ⟨S_, .i1⟩
  | .hbm, ⟨22, _⟩ => ⟨S1024x8192, .i1⟩
  | .hbm, ⟨23, _⟩ => ⟨S1024x8192x1, .i32⟩
  | .hbm, ⟨24, _⟩ => ⟨S1024x8192, .i32⟩
  | .hbm, ⟨25, _⟩ => ⟨S_, .i32⟩
  | .hbm, ⟨26, _⟩ => ⟨S1024x8192, .i32⟩
  | .hbm, ⟨27, _⟩ => ⟨S1024x8192, .i32⟩
  | .hbm, ⟨28, _⟩ => ⟨S1024x8192x1, .i32⟩
  | .hbm, ⟨29, _⟩ => ⟨S1024x8192, .i32⟩
  | .hbm, ⟨30, _⟩ => ⟨S1024x8192, .i32⟩
  | .hbm, ⟨31, _⟩ => ⟨S_, .i32⟩
  | .hbm, ⟨32, _⟩ => ⟨S1024x8192, .i32⟩
  | .hbm, ⟨33, _⟩ => ⟨S1024x8192, .i32⟩
  | .hbm, ⟨34, _⟩ => ⟨S1024x8192x1, .i32⟩
  | .hbm, ⟨35, _⟩ => ⟨S1024x8192, .i32⟩
  | .hbm, ⟨36, _⟩ => ⟨S1024x8192, .i32⟩
  | .hbm, ⟨37, _⟩ => ⟨S1024, .i32⟩
  | .hbm, ⟨38, _⟩ => ⟨S1024x1, .i32⟩
  | .hbm, ⟨39, _⟩ => ⟨S_, .i32⟩
  | .hbm, ⟨40, _⟩ => ⟨S1024x1, .i32⟩
  | .hbm, ⟨41, _⟩ => ⟨S1024x1, .i32⟩
  | .hbm, ⟨42, _⟩ => ⟨S1024x8192, .i32⟩
  | .hbm, ⟨43, _⟩ => ⟨S1024x8192, .i32⟩
  | .hbm, ⟨44, _⟩ => ⟨S_, .i32⟩
  | .hbm, ⟨45, _⟩ => ⟨S_, .i32⟩
  | .hbm, ⟨46, _⟩ => ⟨S1024x8192, .i32⟩
  | .hbm, ⟨47, _⟩ => ⟨S1024x8192, .i32⟩
  | .hbm, ⟨48, _⟩ => ⟨S_, .f32⟩
  | .hbm, ⟨49, _⟩ => ⟨S1024x8192, .f32⟩
  | .hbm, ⟨50, _⟩ => ⟨S8388608, .f32⟩
  | .hbm, ⟨51, _⟩ => ⟨S8388608, .i32⟩
  | .hbm, ⟨52, _⟩ => ⟨S_, .f32⟩
  | .hbm, ⟨53, _⟩ => ⟨S524288, .f32⟩
  | .hbm, ⟨54, _⟩ => ⟨S8388608x1, .i32⟩
  | .hbm, ⟨55, _⟩ => ⟨S524288, .f32⟩
  | .hbm, ⟨56, _⟩ => ⟨S1024x512, .f32⟩
  | .hbm, ⟨57, _⟩ => ⟨S_, .f32⟩
  | .hbm, ⟨58, _⟩ => ⟨S1024x512, .f32⟩
  | .hbm, ⟨59, _⟩ => ⟨S1024x512, .f32⟩
  | .hbm, ⟨60, _⟩ => ⟨S512x40, .f32⟩
  | .hbm, ⟨61, _⟩ => ⟨S1024x40, .f32⟩
  | .hbm, ⟨62, _⟩ => ⟨S1x40, .f32⟩
  | .hbm, ⟨63, _⟩ => ⟨S1024x40, .f32⟩
  | .hbm, ⟨64, _⟩ => ⟨S1024x40, .f32⟩
  | _, _ => ⟨S1024x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  bcast_S_S1024x8192x3 : S_.BroadcastsInDim S1024x8192x3 (![] : Fin 0 → Fin S1024x8192x3.rank)
  reducesTo_S1024x8192x3_S1024x8192_d2 : S1024x8192x3.ReducesTo [2] S1024x8192
  h_S_ : 0 < S_.numel
  slices_S1024x8192x3_S1024x8192x1_0_0_0 : S1024x8192x3.Slices ![0, 0, 0] S1024x8192x1
  shapeCasts_S1024x8192x1_S1024x8192 : S1024x8192x1.ShapeCasts S1024x8192
  bcast_S_S1024x8192 : S_.BroadcastsInDim S1024x8192 (![] : Fin 0 → Fin S1024x8192.rank)
  slices_S1024x8192x3_S1024x8192x1_0_0_1 : S1024x8192x3.Slices ![0, 0, 1] S1024x8192x1
  slices_S1024x8192x3_S1024x8192x1_0_0_2 : S1024x8192x3.Slices ![0, 0, 2] S1024x8192x1
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x8192_0_1 : S1024x1.BroadcastsInDim S1024x8192 (![0, 1] : Fin 2 → Fin S1024x8192.rank)
  shapeCasts_S1024x8192_S8388608 : S1024x8192.ShapeCasts S8388608
  bcast_S_S524288 : S_.BroadcastsInDim S524288 (![] : Fin 0 → Fin S524288.rank)
  bcast_S8388608_S8388608x1_0 : S8388608.BroadcastsInDim S8388608x1 (![0] : Fin 1 → Fin S8388608x1.rank)
  shapeCasts_S524288_S1024x512 : S524288.ShapeCasts S1024x512
  bcast_S_S1024x512 : S_.BroadcastsInDim S1024x512 (![] : Fin 0 → Fin S1024x512.rank)
  transposes_S40x512_S512x40_1_0 : S40x512.Transposes [1, 0] S512x40
  bcast_S40_S1x40_1 : S40.BroadcastsInDim S1x40 (![1] : Fin 1 → Fin S1x40.rank)
  bcast_S1x40_S1024x40_0_1 : S1x40.BroadcastsInDim S1024x40 (![0, 1] : Fin 2 → Fin S1024x40.rank)
  scatter_S524288_S8388608x1_S8388608_n_0_0_1_wf : ScatterDims.WF S524288 S8388608x1 S8388608 [] [0] [0] 1
  dot_S1024x512_S512x40_S1024x40_1_0_0_1_n_n_wf : DotDims.WF S1024x512 S512x40 S1024x40 [1] [0] [0] [1] [] []

variable [Facts₀]

def scatter_S524288_S8388608x1_S8388608_n_0_0_1 : ScatterDims S524288 S8388608x1 S8388608 where
  updateWindowDims := []
  insertedWindowDims := [0]
  scatterDimsToOperandDims := [0]
  indexVectorDim := 1
  wf := scatter_S524288_S8388608x1_S8388608_n_0_0_1_wf
def dot_S1024x512_S512x40_S1024x40_1_0_0_1_n_n : DotDims S1024x512 S512x40 S1024x40 where
  lhsContracting := [1]
  rhsContracting := [0]
  lhsNonContracting := [0]
  rhsNonContracting := [1]
  lhsBatch := []
  rhsBatch := []
  wf := dot_S1024x512_S512x40_S1024x40_1_0_0_1_n_n_wf

class Facts : Prop extends Facts₀ where

variable [Facts]
-- ==== Proof.Pieces.lean ====
/-
  What one grid point leaves behind, as values.

  The kernel keeps a running histogram block in a scratch buffer.  At the first point of a row tile's run it clears the
  buffer and then adds the tile's counts; at every later point it adds the tile's counts to what the point before
  left; at the run's last point it also reads the finished block back, scales it, contracts it with the weights and
  adds the bias, and stores that as the output block.  Each of these is one covering store, so what the buffers hold
  afterwards is the stored value itself.
-/
import proofs.«107436_j28561532518446_1_alg».proof.Proof.Gen.KernelIdeal.Value
import Idealize.ShloMosaic.Lib.Pipeline.Value
import Idealize.ShloMosaic.Lib.Tactic

noncomputable section

namespace Cert.Hist.Pieces

open Idealize.ShloMosaic Idealize.ShloMosaic.TcCoe Idealize.SL.Sem
open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after one tile: what it held, plus the tile's counts. -/
def step (x0 : Vec F S256x1024x3 .f32) (acc : Vec F S256x512 .f32) : Vec F S256x512 .f32 :=
  k0_pay9 (k0_pay5 x0) (k0_pay6 x0) (k0_pay7 x0) (k0_pay8 x0) acc

/-- A run's first point clears the accumulator and leaves the first tile's counts over zero. -/
theorem sout_A (c : Dev nD) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (hc0 : cond0_0 i) (hc1 : ¬cond0_1 i)
    (x0 : Vec F S256x1024x3 .f32) (x1 : Vec F S40x512 .f32) (x2 : Vec F S40 .f32) :
    sout0_A_0 c i arg2 harg2 arg3 harg3 arg4 harg4 arg5 harg5 arg6 harg6 hc0 hc1 x0 x1 x2 = step x0 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x512) hz2, View.readCov_unit_zero (S := S256x512) _ hz2]
  unfold step k0_pay1
  simp only [View.readAt_eq_ld, harg2.read_unread, View.ld_unit_zero (S := S256x1024x3) hz3, shapeCast_self]

/-- A later point of a run leaves the accumulator one tile further. -/
theorem sout_B (c : Dev nD) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (hc0 : ¬cond0_0 i) (hc1 : ¬cond0_1 i)
    (x0 : Vec F S256x1024x3 .f32) (x1 : Vec F S40x512 .f32) (x2 : Vec F S40 .f32) (xs0 : Vec F S256x512 .f32) :
    sout0_B_0 c i arg2 harg2 arg3 harg3 arg4 harg4 arg5 harg5 arg6 harg6 hc0 hc1 x0 x1 x2 xs0 = step x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  unfold step k0_pay1
  simp only [View.readAt_eq_ld, harg2.read_unread, harg6.read_unread, View.ld_unit_zero (S := S256x1024x3) hz3,
    View.ld_unit_zero (S := S256x512) hz2, shapeCast_self]

/-- So does a run's last point … -/
theorem sout_C (c : Dev nD) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (hc0 : ¬cond0_0 i) (hc1 : cond0_1 i)
    (x0 : Vec F S256x1024x3 .f32) (x1 : Vec F S40x512 .f32) (x2 : Vec F S40 .f32) (xs0 : Vec F S256x512 .f32) :
    sout0_C_0 c i arg2 harg2 arg3 harg3 arg4 harg4 arg5 harg5 arg6 harg6 hc0 hc1 x0 x1 x2 xs0 = step x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  unfold step k0_pay1
  simp only [View.readAt_eq_ld, harg2.read_unread, harg6.read_unread, View.ld_unit_zero (S := S256x1024x3) hz3,
    View.ld_unit_zero (S := S256x512) hz2, shapeCast_self]

/-- … which also stores the output block: the finished accumulator scaled, contracted with the weights, plus the bias. -/
theorem out_C (c : Dev nD) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (hc0 : ¬cond0_0 i) (hc1 : cond0_1 i)
    (x0 : Vec F S256x1024x3 .f32) (x1 : Vec F S40x512 .f32) (x2 : Vec F S40 .f32) (xs0 : Vec F S256x512 .f32) :
    out0_C_3 c i arg2 harg2 arg3 harg3 arg4 harg4 arg5 harg5 arg6 harg6 hc0 hc1 x0 x1 x2 xs0 = k0_pay2 (step x0 xs0) x1 x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S256x512) _ hz2]
  unfold step k0_pay1
  simp only [View.readAt_eq_ld, harg2.read_unread, harg3.read_unread, harg4.read_unread, harg6.read_unread,
    View.ld_unit_zero (S := S256x1024x3) hz3, View.ld_unit_zero (S := S256x512) hz2, View.ld_unit_zero (S := S40x512) hz2,
    View.ld_unit_zero (S := S40) hz1, shapeCast_self]

end Cert.Hist.Pieces

end
-- ==== Proof.Spec.lean ====
/-
  The mathematics of the voxel histogram classifier, stated once and away from both programs.

  A point of the cloud has three coordinates. A coordinate `x` that lies in the box `[-2, 2]` falls in the bin
  `⌊(x + 2) / 0.5⌋`, capped at 7 so that `x = 2` joins the last bin; the point is COUNTED in voxel `(v, j, k)` when all
  three coordinates lie in the box and their bins are `v`, `j` and `k`. Voxel `(v, j, k)` is column `64 v + 8 j + k` of a
  batch row's histogram; the row's histogram is scaled by `2⁻¹³ = 1 / 8192`, contracted with the weight matrix and
  shifted by the bias.  Both programs compute this function; this file only names it.
-/
import Idealize.ShloMosaic.PureOps.Ideal
import Idealize.ShloMosaic.Lib.ValueIdx
import Idealize.ShloMosaic.PureOps.Reduce
import Idealize.ShloMosaic.PureOps.Ideal.Laws

noncomputable section

open scoped BigOperators

namespace Cert.Hist

open Idealize.ShloMosaic Idealize.ShloMosaic.ValueIdx

/-- The box's lower end, `-2`. -/
abbrev lo : EReal := Ideal.ofBits .f32 0xC0000000#32
/-- The box's upper end, `2`. -/
abbrev hi : EReal := Ideal.ofBits .f32 0x40000000#32
/-- A bin's width, `0.5`. -/
abbrev width : EReal := Ideal.ofBits .f32 0x3F000000#32
/-- The normalisation `2⁻¹³ = 1 / 8192`. -/
abbrev invN : EReal := Ideal.ofBits .f32 0x39000000#32

/-- The bin of a coordinate: `⌊(x + 2) / 0.5⌋` as a 32-bit integer (the conversion saturates), capped at 7. -/
def bin (x : EReal) : BitVec 32 :=
  IntOp.minsi (Ideal.fptosi 32 (Ideal.liftRound Int.floor (Ideal.div (x - lo) width))) 7#32

/-- The coordinate lies in the box `[-2, 2]`. -/
def inBox (x : EReal) : Prop := lo ≤ x ∧ x ≤ hi

/-- The point `p` is counted in voxel `(v, j, k)`. -/
def Hits (p : Fin 3 → EReal) (v j k : Fin 8) : Prop :=
  (∀ d, inBox (p d)) ∧ bin (p 0) = BitVec.ofNat 32 v.val ∧ bin (p 1) = BitVec.ofNat 32 j.val
    ∧ bin (p 2) = BitVec.ofNat 32 k.val

open Classical in
/-- One or zero: whether the point `p` is counted in voxel `(v, j, k)`. -/
def hit (p : Fin 3 → EReal) (v j k : Fin 8) : EReal := if Hits p v j k then 1 else 0

/-- The three voxel coordinates of a histogram column `l = 64 v + 8 j + k`. -/
abbrev colV (l : Fin 512) : Fin 8 := ⟨l.val / 64, by omega⟩
abbrev colJ (l : Fin 512) : Fin 8 := ⟨l.val / 8 % 8, by omega⟩
abbrev colK (l : Fin 512) : Fin 8 := ⟨l.val % 8, by omega⟩

/-- How many of the points `P 0, …, P (N-1)` are counted in column `l`. -/
def cnt {N : Nat} (P : Fin N → Fin 3 → EReal) (l : Fin 512) : EReal :=
  ∑ n : Fin N, hit (P n) (colV l) (colJ l) (colK l)

/-- The points of batch row `b` of the cloud `X`. -/
abbrev rowPts (X : (⟨3, ![1024, 8192, 3]⟩ : Shape).Idx → EReal) (b : Fin 1024) : Fin 8192 → Fin 3 → EReal :=
  fun n d => X (ix3 b n d)

/-- THE RESULT: row `b`, class `c` — the scaled histogram of the row contracted with the class's weights, plus its bias. -/
def G (X : (⟨3, ![1024, 8192, 3]⟩ : Shape).Idx → EReal) (W : (⟨2, ![40, 512]⟩ : Shape).Idx → EReal)
    (B : (⟨1, ![40]⟩ : Shape).Idx → EReal) : (⟨2, ![1024, 40]⟩ : Shape).Idx → EReal :=
  fun i => (∑ l : Fin 512, (cnt (rowPts X (i 0)) l * invN) * W (ix2 (i 1) l)) + B (ix1 (i 1))

/-! ## The two programs' spellings of "counted", one point at a time -/

/-- A one-hot entry as the kernel spells it: the comparison of a bin with a lane number, widened and converted. -/
def ohf (b : BitVec 32) (a : Fin 8) : EReal :=
  ((((IntOp.cmpi .eq b (BitVec.ofNat 32 a.val)).setWidth 32).toInt : ℝ) : EReal)

/-- The kernel's validity factor of a point: the least over the three coordinates of "one if in the box, else zero",
    compared with zero, widened and converted. -/
def validf (p : Fin 3 → EReal) : EReal :=
  ((((Ideal.cmp .ogt
      ((Finset.univ : Finset (Fin 3)).fold (FloatOps.minimumf (F := Ideal) (φ := .f32)) (Ideal.ofBits .f32 0x7F800000#32)
        (fun d => Scalar.select (IntOp.andi (Ideal.cmp .oge (p d) lo) (Ideal.cmp .ole (p d) hi))
          (Ideal.ofBits .f32 0x3F800000#32) (Ideal.ofBits .f32 0x00000000#32)))
      (Ideal.ofBits .f32 0x00000000#32)).setWidth 32).toInt : ℝ) : EReal)

/-- The reference's validity bit of a point: the conjunction over the three coordinates of "in the box". -/
def validb (p : Fin 3 → EReal) : BitVec 1 :=
  (Finset.univ : Finset (Fin 3)).fold IntOp.andi 1#1
    (fun d => IntOp.andi (Ideal.cmp .oge (p d) lo) (Ideal.cmp .ole (p d) hi))

/-- The reference's segment number of point `p` of batch row `b`: `512 b + (8 (8 bin₀ + bin₁) + bin₂)` in 32-bit
    arithmetic when the point is valid, the out-of-range number `524288` otherwise. -/
def segOf (p : Fin 3 → EReal) (b : Fin 1024) : BitVec 32 :=
  Scalar.select (validb p)
    (IntOp.addi (IntOp.muli (BitVec.ofNat 32 b.val) 512#32)
      (IntOp.addi (IntOp.muli (IntOp.addi (IntOp.muli (bin (p 0)) 8#32) (bin (p 1))) 8#32) (bin (p 2))))
    524288#32

end Cert.Hist

end
-- ==== Proof.Blocks.lean ====
/-
  The blocks the pipeline shows the kernel at a grid point, as pieces of the argument arrays.

  The grid has 4 × 8 points; point `t = 8 q + s` works on row tile `q` (rows `256 q … 256 q + 255` of the batch) and on
  point tile `s` (points `1024 s … 1024 s + 1023` of each row).  The weights and the bias are shown whole at every
  point.  The output's block at point `t` is rows `256 q …` of the result, all 40 classes.
-/
import proofs.«107436_j28561532518446_1_alg».proof.Proof.Pieces
import proofs.«107436_j28561532518446_1_alg».proof.Proof.Spec
import Idealize.ShloMosaic.Lib.ValueIdx

noncomputable section

namespace Cert.Hist.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Hist Cert.Hist.Pieces

variable (m : (ℓ : Loc nD τ sig) → Buf (Elt Ideal) ℓ) (ρ : Dev nD → PrngReg)

/-- The three argument arrays as the region finds them. -/
abbrev Xarr (c : Dev nD) : Vec Ideal S1024x8192x3 .f32 := m ((c : Thread nD τ).loc main_arg0)
abbrev Warr (c : Dev nD) : Vec Ideal S40x512 .f32 := m ((c : Thread nD τ).loc main_arg1)
abbrev Barr (c : Dev nD) : Vec Ideal S40 .f32 := m ((c : Thread nD τ).loc main_arg2)

/-- The blocks the three input windows hold at grid point `t`. -/
abbrev xblk (c : Dev nD) (t : Fin cfg0.N) : Vec Ideal S256x1024x3 .f32 := iblk m c 0 t
abbrev wblk (c : Dev nD) (t : Fin cfg0.N) : Vec Ideal S40x512 .f32 := iblk m c 1 t
abbrev bblk (c : Dev nD) (t : Fin cfg0.N) : Vec Ideal S40 .f32 := iblk m c 2 t

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)

/-- Point `t = 8 q + s` holds rows `256 q …` and points `1024 s …` of the cloud. -/
theorem xblk_apply (c : Dev nD) (t : Fin cfg0.N) (r : Fin 256) (n : Fin 1024) (d : Fin 3)
    (hr : t.val / 8 * 256 + r.val < 1024) (hn : t.val % 8 * 1024 + n.val < 8192) :
    xblk m c t (ix3 r n d) = Xarr m c (ix3 ⟨t.val / 8 * 256 + r.val, hr⟩ ⟨t.val % 8 * 1024 + n.val, hn⟩ d) := by
  obtain ⟨h0, h1, h2⟩ := idx0 t
  unfold xblk iblk
  rw [View.read_apply]
  show V m c main_arg0 _ = m (c.tc.loc main_arg0) _
  unfold V
  congr 1
  funext a
  apply Fin.ext
  match a with
  | ⟨0, _⟩ => show win0_0.index t 0 * 256 + 1 * r.val = t.val / 8 * 256 + r.val; rw [h0]; omega
  | ⟨1, _⟩ => show win0_0.index t 1 * 1024 + 1 * n.val = t.val % 8 * 1024 + n.val; rw [h1]; omega
  | ⟨2, _⟩ => show win0_0.index t 2 * 3 + 1 * d.val = d.val; rw [h2]; omega

theorem wblk_apply (c : Dev nD) (t : Fin cfg0.N) (a : Fin 40) (l : Fin 512) :
    wblk m c t (ix2 a l) = Warr m c (ix2 a l) := by
  obtain ⟨h0, h1⟩ := idx1 t
  unfold wblk iblk
  rw [View.read_apply]
  show V m c main_arg1 _ = m (c.tc.loc main_arg1) _
  unfold V
  congr 1
  funext b
  apply Fin.ext
  match b with
  | ⟨0, _⟩ => show win0_1.index t 0 * 40 + 1 * a.val = a.val; rw [h0]; omega
  | ⟨1, _⟩ => show win0_1.index t 1 * 512 + 1 * l.val = l.val; rw [h1]; omega

theorem bblk_apply (c : Dev nD) (t : Fin cfg0.N) (a : Fin 40) :
    bblk m c t (ix1 a) = Barr m c (ix1 a) := by
  have h0 := idx2 t
  unfold bblk iblk
  rw [View.read_apply]
  show V m c main_arg2 _ = m (c.tc.loc main_arg2) _
  unfold V
  congr 1
  funext b
  apply Fin.ext
  match b with
  | ⟨0, _⟩ => show win0_2.index t 0 * 40 + 1 * a.val = a.val; rw [h0]; omega

end Cert.Hist.Blocks

end
-- ==== Proof.Tile.lean ====
/-
  What one grid point adds to the accumulator, read at one entry.

  The kernel's tile holds 256 batch rows of 1024 points.  For each point it forms the bins of the three coordinates, a
  validity factor, and one-hot rows of the bins; eight batched matrix products over the 1024 points, laid side by side,
  give at row r and column l = 64 v + 8 j + k the sum over the points n of the product of the one-hot factors of
  (v, j, k) and the validity factor of point n.
-/
import proofs.«107436_j28561532518446_1_alg».proof.Proof.Gen.KernelIdeal.Skeleton
import proofs.«107436_j28561532518446_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.Hist.Tile

open Idealize.ShloMosaic Idealize.ShloMosaic.ValueIdx Cert.KernelIdeal Cert.KernelIdeal.Gen Cert.Hist

/-- The bin of coordinate d of point n of row r. -/
theorem pay4_apply [Facts] (x : Vec Ideal S256x1024x3 .f32) (r : Fin 256) (n : Fin 1024) (d : Fin 3) :
    k0_pay4 (F := Ideal) x (ix3 r n d) = bin (x (ix3 r n d)) := rfl

/-- A slice of width one along the last axis, broadcast back to eight lanes, reads the sliced lane. -/
theorem bcast_slice_apply [Facts] {α : Type} (y : S256x1024x3.Idx → α) (o : Nat) (ho : o < 3)
    (hs : S256x1024x3.Slices ![0, 0, o] S256x1024x1) (r : Fin 256) (n : Fin 1024) (a : Fin 8) :
    broadcastTo S256x1024x8 (extractStridedSlice S256x1024x1 ![0, 0, o] y hs) broadcasts_S256x1024x1_S256x1024x8 (ix3 r n a)
      = y (ix3 r n ⟨o, ho⟩) := by
  refine (broadcastTo_apply _ broadcasts_S256x1024x1_S256x1024x8 (ix3 r n a) (ix3 r n (0 : Fin 1)) ?_).trans ?_
  · intro b
    match b with
    | ⟨0, _⟩ => rfl
    | ⟨1, _⟩ => rfl
    | ⟨2, _⟩ => rfl
  · refine extractStridedSlice_apply _ y hs (ix3 r n (0 : Fin 1)) (ix3 r n ⟨o, ho⟩) ?_
    intro b
    match b with
    | ⟨0, _⟩ => simp
    | ⟨1, _⟩ => simp
    | ⟨2, _⟩ => simp

/-- The comparison of a broadcast lane of bins with the lane numbers, at one entry. -/
theorem onehot_apply [Facts] (y : IVec S256x1024x3 32) (o : Nat) (ho : o < 3)
    (hs : S256x1024x3.Slices ![0, 0, o] S256x1024x1) (r : Fin 256) (n : Fin 1024) (a : Fin 8) :
    cmpi .eq (broadcastTo S256x1024x8 (extractStridedSlice S256x1024x1 ![0, 0, o] y hs) broadcasts_S256x1024x1_S256x1024x8)
        (iota .tc S256x1024x8 32 [2] iota_S256x1024x8_d2_w32) (ix3 r n a)
      = IntOp.cmpi .eq (y (ix3 r n ⟨o, ho⟩)) (BitVec.ofNat 32 a.val) := by
  show IntOp.cmpi .eq (broadcastTo S256x1024x8 (extractStridedSlice S256x1024x1 ![0, 0, o] y hs) broadcasts_S256x1024x1_S256x1024x8 (ix3 r n a))
        (iota .tc S256x1024x8 32 [2] iota_S256x1024x8_d2_w32 (ix3 r n a)) = _
  rw [bcast_slice_apply y o ho hs r n a, iota_single_apply]

/-- The one-hot row of the first coordinate's bin. -/
theorem pay6_apply [Facts] (x : Vec Ideal S256x1024x3 .f32) (r : Fin 256) (n : Fin 1024) (a : Fin 8) :
    k0_pay6 (F := Ideal) x (ix3 r n a) = ohf (bin (x (ix3 r n 0))) a := by
  unfold k0_pay6 ohf
  exact congrArg (fun b : BitVec 1 => (((b.setWidth 32).toInt : ℝ) : EReal))
    (onehot_apply (k0_pay4 (F := Ideal) x) 0 (by decide) slices_S256x1024x3_o0_0_0_S256x1024x1 r n a)

/-- The one-hot row of the second coordinate's bin. -/
theorem pay7_apply [Facts] (x : Vec Ideal S256x1024x3 .f32) (r : Fin 256) (n : Fin 1024) (a : Fin 8) :
    k0_pay7 (F := Ideal) x (ix3 r n a) = ohf (bin (x (ix3 r n 1))) a := by
  unfold k0_pay7 ohf
  exact congrArg (fun b : BitVec 1 => (((b.setWidth 32).toInt : ℝ) : EReal))
    (onehot_apply (k0_pay4 (F := Ideal) x) 1 (by decide) slices_S256x1024x3_o0_0_1_S256x1024x1 r n a)

/-- The comparison bits of the third coordinate's bin. -/
theorem pay8_apply [Facts] (x : Vec Ideal S256x1024x3 .f32) (r : Fin 256) (n : Fin 1024) (a : Fin 8) :
    k0_pay8 (F := Ideal) x (ix3 r n a) = IntOp.cmpi .eq (bin (x (ix3 r n 2))) (BitVec.ofNat 32 a.val) := by
  unfold k0_pay8
  exact onehot_apply (k0_pay4 (F := Ideal) x) 2 (by decide) slices_S256x1024x3_o0_0_2_S256x1024x1 r n a

/-- The least over the three lanes of a row-and-point, as a fold over the lane number. -/
theorem min3_apply [Facts] (y : FVec Ideal S256x1024x3 .f32) (r : Fin 256) (n : Fin 1024) :
    multiReduction (F := Ideal) .minimumf [2] S256x1024 y 0x7F800000#32 reduces_S256x1024x3_S256x1024 (.inl rfl) rfl (ix2 r n)
      = (Finset.univ : Finset (Fin 3)).fold (FloatOps.minimumf (F := Ideal) (φ := .f32)) (Ideal.ofBits .f32 0x7F800000#32)
          (fun d => y (ix3 r n d)) := by
  refine (multiReduction_minimumf_eq_fold (F := Ideal) y _ reduces_S256x1024x3_S256x1024 (.inl rfl) rfl (ix2 r n)).trans ?_
  refine (Shape.Reduces.fold_filter_drop_single reduces_S256x1024x3_S256x1024 _ _ y (ix2 r n)).trans ?_
  refine congrArg (fun f : Fin 3 → EReal => (Finset.univ : Finset (Fin 3)).fold (FloatOps.minimumf (F := Ideal) (φ := .f32))
    (Ideal.ofBits .f32 0x7F800000#32) f) ?_
  funext d
  refine congrArg y (funext fun c => Fin.ext ?_)
  match c with
  | ⟨0, _⟩ => rfl
  | ⟨1, _⟩ => rfl
  | ⟨2, _⟩ => rfl

/-- The comparison with zero of a vector of minima, widened and converted, at one entry. -/
theorem gt0_apply [Facts] (m : FVec Ideal S256x1024 .f32) (r : Fin 256) (n : Fin 1024) :
    (truncf .bf16 (sitofp (F := Ideal) .f32 (extui 32 (cmpf .ogt m (broadcast S256x1024 (Scalar.ofBits (F := Ideal) .f32 0x00000000#32))) natLt_1_32))
        bitsLt_bf16_f32 : FVec Ideal S256x1024 .bf16) (ix2 r n)
      = ((((Ideal.cmp .ogt (m (ix2 r n)) (Ideal.ofBits .f32 0x00000000#32)).setWidth 32).toInt : ℝ) : EReal) := rfl

/-- The validity factor of point n of row r. -/
theorem pay5_apply [Facts] (x : Vec Ideal S256x1024x3 .f32) (r : Fin 256) (n : Fin 1024) :
    k0_pay5 (F := Ideal) x (ix3 r n (0 : Fin 1)) = validf (fun d => x (ix3 r n d)) := by
  unfold k0_pay5 validf
  refine (shapeCast_apply _ shapeCasts_S256x1024_S256x1024x1 (ix3 r n (0 : Fin 1)) (ix2 r n) ?_).trans ?_
  · rw [Shape.rowMajor_val_two, Shape.rowMajor_val_three]
    simp
  · refine (gt0_apply _ r n).trans ?_
    exact congrArg (fun m : EReal => ((((Ideal.cmp .ogt m (Ideal.ofBits .f32 0x00000000#32)).setWidth 32).toInt : ℝ) : EReal))
      (min3_apply _ r n)

/-- A slice of width one along the last axis, broadcast back to eight lanes, reads the sliced lane: eight-lane source. -/
theorem bcast_slice8_apply [Facts] {α : Type} (y : S256x1024x8.Idx → α) (o : Nat) (ho : o < 8)
    (hs : S256x1024x8.Slices ![0, 0, o] S256x1024x1) (r : Fin 256) (n : Fin 1024) (a : Fin 8) :
    broadcastTo S256x1024x8 (extractStridedSlice S256x1024x1 ![0, 0, o] y hs) broadcasts_S256x1024x1_S256x1024x8 (ix3 r n a)
      = y (ix3 r n ⟨o, ho⟩) := by
  refine (broadcastTo_apply _ broadcasts_S256x1024x1_S256x1024x8 (ix3 r n a) (ix3 r n (0 : Fin 1)) ?_).trans ?_
  · intro b
    match b with
    | ⟨0, _⟩ => rfl
    | ⟨1, _⟩ => rfl
    | ⟨2, _⟩ => rfl
  · refine extractStridedSlice_apply _ y hs (ix3 r n (0 : Fin 1)) (ix3 r n ⟨o, ho⟩) ?_
    intro b
    match b with
    | ⟨0, _⟩ => simp
    | ⟨1, _⟩ => simp
    | ⟨2, _⟩ => simp

/-- The batched product's dimension numbers: batch axis 0, contraction over the points, one free lane on each side. -/
abbrev D [Facts] : DotDims S256x1024x8 S256x1024x8 S256x8x8 := dot_S256x1024x8_S256x1024x8_S256x8x8_1_1_2_2_0_0

/-- The left operand's index at output index j and contraction index q: the batch row, the point, the left free lane. -/
theorem lhs0 [Facts] (j : S256x8x8.Idx) (q : D.contr.Idx) : (D.lhsIdx j q 0).val = (j 0).val := by
  unfold DotDims.lhsIdx
  rw [dif_pos (show (0 : Fin S256x1024x8.rank) ∈ D.lhsBatch from List.mem_singleton.mpr rfl)]
  rfl
theorem lhs1 [Facts] (j : S256x8x8.Idx) (q : D.contr.Idx) : (D.lhsIdx j q 1).val = (q ⟨0, Nat.one_pos⟩).val :=
  D.lhsIdx_val_of_single rfl j q
theorem lhs2 [Facts] (j : S256x8x8.Idx) (q : D.contr.Idx) : (D.lhsIdx j q 2).val = (j 1).val := by
  unfold DotDims.lhsIdx
  rw [dif_neg (show ¬(2 : Fin S256x1024x8.rank) ∈ D.lhsBatch from fun h => absurd (List.mem_singleton.mp h) (by decide)),
    dif_pos (show (2 : Fin S256x1024x8.rank) ∈ D.lhsNonContracting from List.mem_singleton.mpr rfl)]
  rfl
/-- The right operand's index likewise: the batch row, the point, the right free lane. -/
theorem rhs0 [Facts] (j : S256x8x8.Idx) (q : D.contr.Idx) : (D.rhsIdx j q 0).val = (j 0).val := by
  unfold DotDims.rhsIdx
  rw [dif_pos (show (0 : Fin S256x1024x8.rank) ∈ D.rhsBatch from List.mem_singleton.mpr rfl)]
  rfl
theorem rhs1 [Facts] (j : S256x8x8.Idx) (q : D.contr.Idx) : (D.rhsIdx j q 1).val = (q ⟨0, Nat.one_pos⟩).val :=
  D.rhsIdx_val_of_single rfl j q
theorem rhs2 [Facts] (j : S256x8x8.Idx) (q : D.contr.Idx) : (D.rhsIdx j q 2).val = (j 2).val := by
  unfold DotDims.rhsIdx
  rw [dif_neg (show ¬(2 : Fin S256x1024x8.rank) ∈ D.rhsBatch from fun h => absurd (List.mem_singleton.mp h) (by decide)),
    dif_pos (show (2 : Fin S256x1024x8.rank) ∈ D.rhsNonContracting from List.mem_singleton.mpr rfl)]
  rfl

/-- The batched product into the zero block, at row r and lanes (j, k): the sum over the points of the products. -/
theorem dot_apply [Facts] (A B : FVec Ideal S256x1024x8 .bf16) (r : Fin 256) (j k : Fin 8) :
    matmul D none A B (constant (F := Ideal) S256x8x8 .f32 0x00000000#32) (ix3 r j k)
      = ∑ n : Fin 1024, A (ix3 r n j) * B (ix3 r n k) := by
  refine (Ideal.matmul_constant_zero_apply D none A B (ix3 r j k)).trans ?_
  rw [← Equiv.sum_comp (contrEquiv1 D 1024 rfl rfl).symm]
  refine Finset.sum_congr rfl fun n _ => ?_
  have hk := contrEquiv1_symm_val D 1024 rfl rfl n
  have el : D.lhsIdx (ix3 r j k) ((contrEquiv1 D 1024 rfl rfl).symm n) = ix3 r n j := funext fun a => Fin.ext (by
    match a with
    | ⟨0, _⟩ => exact lhs0 _ _
    | ⟨1, _⟩ => exact (lhs1 _ _).trans hk
    | ⟨2, _⟩ => exact lhs2 _ _)
  have er : D.rhsIdx (ix3 r j k) ((contrEquiv1 D 1024 rfl rfl).symm n) = ix3 r n k := funext fun a => Fin.ext (by
    match a with
    | ⟨0, _⟩ => exact rhs0 _ _
    | ⟨1, _⟩ => exact (rhs1 _ _).trans hk
    | ⟨2, _⟩ => exact rhs2 _ _)
  rw [el, er]

/-- The right operand of every product: the third coordinate's one-hot row times the validity factor. -/
theorem rhs_apply [Facts] (v26 : FVec Ideal S256x1024x1 .bf16) (v42 : IVec S256x1024x8 1) (r : Fin 256) (n : Fin 1024) (k : Fin 8) :
    mulf (truncf .bf16 (sitofp (F := Ideal) .f32 (extui 32 v42 natLt_1_32)) bitsLt_bf16_f32 : FVec Ideal S256x1024x8 .bf16)
        (broadcastTo S256x1024x8 v26 broadcasts_S256x1024x1_S256x1024x8) (ix3 r n k)
      = ((((v42 (ix3 r n k)).setWidth 32).toInt : ℝ) : EReal) * v26 (ix3 r n (0 : Fin 1)) := by
  show ((((v42 (ix3 r n k)).setWidth 32).toInt : ℝ) : EReal)
      * broadcastTo S256x1024x8 v26 broadcasts_S256x1024x1_S256x1024x8 (ix3 r n k) = _
  refine congrArg (((((v42 (ix3 r n k)).setWidth 32).toInt : ℝ) : EReal) * ·) ?_
  refine broadcastTo_apply _ broadcasts_S256x1024x1_S256x1024x8 (ix3 r n k) (ix3 r n (0 : Fin 1)) ?_
  intro b
  match b with
  | ⟨0, _⟩ => rfl
  | ⟨1, _⟩ => rfl
  | ⟨2, _⟩ => rfl

/-- One of the eight products, flattened to 64 columns, at row r and column c = 8 j + k. -/
theorem piece_apply [Facts] (v35 v40 B : FVec Ideal S256x1024x8 .bf16) (o : Nat) (ho : o < 8)
    (hs : S256x1024x8.Slices ![0, 0, o] S256x1024x1) (r : Fin 256) (j k : Fin 8) (c : Fin 64) (hc : c.val = 8 * j.val + k.val) :
    shapeCast S256x64
        (matmul D none
          (mulf v40 (broadcastTo S256x1024x8 (extractStridedSlice S256x1024x1 ![0, 0, o] v35 hs) broadcasts_S256x1024x1_S256x1024x8))
          B (constant (F := Ideal) S256x8x8 .f32 0x00000000#32))
        shapeCasts_S256x8x8_S256x64 (ix2 r c)
      = ∑ n : Fin 1024, (v40 (ix3 r n j) * v35 (ix3 r n (⟨o, ho⟩ : Fin 8))) * B (ix3 r n k) := by
  refine (shapeCast_apply _ shapeCasts_S256x8x8_S256x64 (ix2 r c) (ix3 r j k) ?_).trans ?_
  · rw [Shape.rowMajor_val_two, Shape.rowMajor_val_three]
    show (r.val * 8 + j.val) * 8 + k.val = r.val * 64 + c.val
    omega
  · refine (dot_apply _ B r j k).trans (Finset.sum_congr rfl fun n _ => ?_)
    refine congrArg (· * B (ix3 r n k)) ?_
    show v40 (ix3 r n j)
        * broadcastTo S256x1024x8 (extractStridedSlice S256x1024x1 ![0, 0, o] v35 hs) broadcasts_S256x1024x1_S256x1024x8
            (ix3 r n j) = _
    rw [bcast_slice8_apply v35 o ho hs r n]

/-- The product for the first coordinate's bin o, at a column l of its span, in terms of the column's three voxel coordinates. -/
theorem piece_target [Facts] (v26 : FVec Ideal S256x1024x1 .bf16) (v35 v40 : FVec Ideal S256x1024x8 .bf16)
    (v42 : IVec S256x1024x8 1) (o : Nat) (ho : o < 8) (hs : S256x1024x8.Slices ![0, 0, o] S256x1024x1)
    (r : Fin 256) (l : Fin 512) (hl : l.val / 64 = o) :
    shapeCast S256x64
        (matmul D none
          (mulf v40 (broadcastTo S256x1024x8 (extractStridedSlice S256x1024x1 ![0, 0, o] v35 hs) broadcasts_S256x1024x1_S256x1024x8))
          (mulf (truncf .bf16 (sitofp (F := Ideal) .f32 (extui 32 v42 natLt_1_32)) bitsLt_bf16_f32 : FVec Ideal S256x1024x8 .bf16)
            (broadcastTo S256x1024x8 v26 broadcasts_S256x1024x1_S256x1024x8))
          (constant (F := Ideal) S256x8x8 .f32 0x00000000#32))
        shapeCasts_S256x8x8_S256x64 (ix2 r (⟨l.val % 64, Nat.mod_lt _ (by decide)⟩ : Fin 64))
      = ∑ n : Fin 1024, (v40 (ix3 r n (colJ l)) * v35 (ix3 r n (colV l)))
          * (((((v42 (ix3 r n (colK l))).setWidth 32).toInt : ℝ) : EReal) * v26 (ix3 r n (0 : Fin 1))) := by
  subst hl
  refine (piece_apply v35 v40 _ _ ho hs r (colJ l) (colK l) _
    (by show l.val % 64 = 8 * (l.val / 8 % 8) + l.val % 8; omega)).trans (Finset.sum_congr rfl fun n _ => ?_)
  rw [rhs_apply]

/-- The accumulator's update at row r and column l, over any factors: the old entry plus the sum over the tile's points of
    the product of the four factors at the column's voxel coordinates. -/
theorem pay9_abs [Facts] (v26 : FVec Ideal S256x1024x1 .bf16) (v35 v40 : FVec Ideal S256x1024x8 .bf16)
    (v42 : IVec S256x1024x8 1) (acc : Vec Ideal S256x512 .f32) (r : Fin 256) (l : Fin 512) :
    k0_pay9 (F := Ideal) v26 v35 v40 v42 acc (ix2 r l)
      = acc (ix2 r l) + ∑ n : Fin 1024, (v40 (ix3 r n (colJ l)) * v35 (ix3 r n (colV l)))
          * (((((v42 (ix3 r n (colK l))).setWidth 32).toInt : ℝ) : EReal) * v26 (ix3 r n (0 : Fin 1))) := by
  unfold k0_pay9
  refine (addf_apply acc _ (ix2 r l)).trans (congrArg (acc (ix2 r l) + ·) ?_)
  have hi : ∀ b : Fin S256x64.rank, b.cast (rfl : S256x64.rank = S256x512.rank) ≠ (1 : Fin S256x512.rank) →
      ((ix2 r (⟨l.val % 64, Nat.mod_lt _ (by decide)⟩ : Fin 64)) b).val = ((ix2 r l) (b.cast rfl)).val := fun b hb => by
    match b with
    | ⟨0, _⟩ => rfl
    | ⟨1, _⟩ => exact absurd rfl hb
  have hl8 : l.val / 64 = 0 ∨ l.val / 64 = 1 ∨ l.val / 64 = 2 ∨ l.val / 64 = 3 ∨ l.val / 64 = 4 ∨ l.val / 64 = 5
      ∨ l.val / 64 = 6 ∨ l.val / 64 = 7 := by omega
  rcases hl8 with h | h | h | h | h | h | h | h
  · exact (concatenate_apply_piece (1 : Fin S256x512.rank) _ _ (ix2 r l) 0 (by show (0 : Nat) < 8; decide) S256x64 _ rfl rfl 0 rfl
      (ix2 r (⟨l.val % 64, Nat.mod_lt _ (by decide)⟩ : Fin 64)) hi (by show 0 + l.val % 64 = l.val; omega)).trans
      (piece_target v26 v35 v40 v42 0 (by decide) slices_S256x1024x8_o0_0_0_S256x1024x1 r l h)
  · exact (concatenate_apply_piece (1 : Fin S256x512.rank) _ _ (ix2 r l) 1 (by show (1 : Nat) < 8; decide) S256x64 _ rfl rfl 64 rfl
      (ix2 r (⟨l.val % 64, Nat.mod_lt _ (by decide)⟩ : Fin 64)) hi (by show 64 + l.val % 64 = l.val; omega)).trans
      (piece_target v26 v35 v40 v42 1 (by decide) slices_S256x1024x8_o0_0_1_S256x1024x1 r l h)
  · exact (concatenate_apply_piece (1 : Fin S256x512.rank) _ _ (ix2 r l) 2 (by show (2 : Nat) < 8; decide) S256x64 _ rfl rfl 128 rfl
      (ix2 r (⟨l.val % 64, Nat.mod_lt _ (by decide)⟩ : Fin 64)) hi (by show 128 + l.val % 64 = l.val; omega)).trans
      (piece_target v26 v35 v40 v42 2 (by decide) slices_S256x1024x8_o0_0_2_S256x1024x1 r l h)
  · exact (concatenate_apply_piece (1 : Fin S256x512.rank) _ _ (ix2 r l) 3 (by show (3 : Nat) < 8; decide) S256x64 _ rfl rfl 192 rfl
      (ix2 r (⟨l.val % 64, Nat.mod_lt _ (by decide)⟩ : Fin 64)) hi (by show 192 + l.val % 64 = l.val; omega)).trans
      (piece_target v26 v35 v40 v42 3 (by decide) slices_S256x1024x8_o0_0_3_S256x1024x1 r l h)
  · exact (concatenate_apply_piece (1 : Fin S256x512.rank) _ _ (ix2 r l) 4 (by show (4 : Nat) < 8; decide) S256x64 _ rfl rfl 256 rfl
      (ix2 r (⟨l.val % 64, Nat.mod_lt _ (by decide)⟩ : Fin 64)) hi (by show 256 + l.val % 64 = l.val; omega)).trans
      (piece_target v26 v35 v40 v42 4 (by decide) slices_S256x1024x8_o0_0_4_S256x1024x1 r l h)
  · exact (concatenate_apply_piece (1 : Fin S256x512.rank) _ _ (ix2 r l) 5 (by show (5 : Nat) < 8; decide) S256x64 _ rfl rfl 320 rfl
      (ix2 r (⟨l.val % 64, Nat.mod_lt _ (by decide)⟩ : Fin 64)) hi (by show 320 + l.val % 64 = l.val; omega)).trans
      (piece_target v26 v35 v40 v42 5 (by decide) slices_S256x1024x8_o0_0_5_S256x1024x1 r l h)
  · exact (concatenate_apply_piece (1 : Fin S256x512.rank) _ _ (ix2 r l) 6 (by show (6 : Nat) < 8; decide) S256x64 _ rfl rfl 384 rfl
      (ix2 r (⟨l.val % 64, Nat.mod_lt _ (by decide)⟩ : Fin 64)) hi (by show 384 + l.val % 64 = l.val; omega)).trans
      (piece_target v26 v35 v40 v42 6 (by decide) slices_S256x1024x8_o0_0_6_S256x1024x1 r l h)
  · exact (concatenate_apply_piece (1 : Fin S256x512.rank) _ _ (ix2 r l) 7 (by show (7 : Nat) < 8; decide) S256x64 _ rfl rfl 448 rfl
      (ix2 r (⟨l.val % 64, Nat.mod_lt _ (by decide)⟩ : Fin 64)) hi (by show 448 + l.val % 64 = l.val; omega)).trans
      (piece_target v26 v35 v40 v42 7 (by decide) slices_S256x1024x8_o0_0_7_S256x1024x1 r l h)

/-- The accumulator's update at row r and column l = 64 v + 8 j + k: the old entry plus the number of the tile's valid
    points of row r whose three bins are (v, j, k), as a sum of products of one-hot factors. -/
theorem pay9_apply [Facts] (x : Vec Ideal S256x1024x3 .f32) (acc : Vec Ideal S256x512 .f32) (r : Fin 256) (l : Fin 512) :
    k0_pay9 (F := Ideal) (k0_pay5 x) (k0_pay6 x) (k0_pay7 x) (k0_pay8 x) acc (ix2 r l)
      = acc (ix2 r l) + ∑ n : Fin 1024, (ohf (bin (x (ix3 r n 1))) (colJ l) * ohf (bin (x (ix3 r n 0))) (colV l) * (ohf (bin (x (ix3 r n 2))) (colK l) * validf (fun d => x (ix3 r n d)))) := by
  refine (pay9_abs _ _ _ _ acc r l).trans (congrArg (acc (ix2 r l) + ·) (Finset.sum_congr rfl fun n _ => ?_))
  rw [pay7_apply, pay6_apply, pay8_apply, pay5_apply]
  rfl

end Cert.Hist.Tile

end
-- ==== Proof.Final.lean ====
/-
  The last grid point's output block, read at one entry: the scaled accumulator contracted with the transposed
  weights, plus the bias row.

  The block is a matrix product into the zero matrix, so each entry is a sum over the 512 columns of the accumulator's
  row; the left factor is the accumulator's entry times `2⁻¹³` (narrowing a float is the identity at the ideal
  values), the right factor is the transposed weight matrix's entry, which is the weight matrix's entry at the swapped
  index; the bias vector, reshaped to a row and repeated down the 256 rows, adds its entry at the column.
-/
import proofs.«107436_j28561532518446_1_alg».proof.Proof.Gen.KernelIdeal.Skeleton
import proofs.«107436_j28561532518446_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hist.Final

open Idealize.ShloMosaic Idealize.ShloMosaic.ValueIdx Cert.KernelIdeal Cert.KernelIdeal.Gen Cert.Hist

variable [Facts]

/-! ## The product's operand indices, axis by axis -/

/-- The left operand's row is the output's row. -/
theorem lhs_0 (i : S256x40.Idx) (q : dot_S256x512_S512x40_S256x40_1_0_0_1_n_n.contr.Idx) :
    (dot_S256x512_S512x40_S256x40_1_0_0_1_n_n.lhsIdx i q 0).val = (i 0).val := by
  unfold DotDims.lhsIdx
  rw [dif_neg (show ¬(0 : Fin S256x512.rank) ∈ dot_S256x512_S512x40_S256x40_1_0_0_1_n_n.lhsBatch by decide),
    dif_pos (show (0 : Fin S256x512.rank) ∈ dot_S256x512_S512x40_S256x40_1_0_0_1_n_n.lhsNonContracting by decide)]
  rfl

/-- The left operand's column is the contraction index. -/
theorem lhs_1 (i : S256x40.Idx) (q : dot_S256x512_S512x40_S256x40_1_0_0_1_n_n.contr.Idx) :
    (dot_S256x512_S512x40_S256x40_1_0_0_1_n_n.lhsIdx i q 1).val = (q ⟨0, by decide⟩).val :=
  dot_S256x512_S512x40_S256x40_1_0_0_1_n_n.lhsIdx_val_of_single rfl i q

/-- The right operand's row is the contraction index. -/
theorem rhs_0 (i : S256x40.Idx) (q : dot_S256x512_S512x40_S256x40_1_0_0_1_n_n.contr.Idx) :
    (dot_S256x512_S512x40_S256x40_1_0_0_1_n_n.rhsIdx i q 0).val = (q ⟨0, by decide⟩).val :=
  dot_S256x512_S512x40_S256x40_1_0_0_1_n_n.rhsIdx_val_of_single rfl i q

/-- The right operand's column is the output's column. -/
theorem rhs_1 (i : S256x40.Idx) (q : dot_S256x512_S512x40_S256x40_1_0_0_1_n_n.contr.Idx) :
    (dot_S256x512_S512x40_S256x40_1_0_0_1_n_n.rhsIdx i q 1).val = (i 1).val := by
  unfold DotDims.rhsIdx
  rw [dif_neg (show ¬(1 : Fin S512x40.rank) ∈ dot_S256x512_S512x40_S256x40_1_0_0_1_n_n.rhsBatch by decide),
    dif_pos (show (1 : Fin S512x40.rank) ∈ dot_S256x512_S512x40_S256x40_1_0_0_1_n_n.rhsNonContracting by decide)]
  rfl

/-! ## The product into the zero matrix, as a sum over the 512 columns -/

/-- A matrix product of a `256 × 512` by a `512 × 40` matrix into the zero matrix, read at `(r, c)`. -/
theorem matmul_zero_apply {φ₁ φ₂ : FTy} (x : FVec Ideal S256x512 φ₁) (y : FVec Ideal S512x40 φ₂) (r : Fin 256) (c : Fin 40) :
    FloatOps.matmul dot_S256x512_S512x40_S256x40_1_0_0_1_n_n none x y (constant S256x40 .f32 0x00000000#32) (ix2 r c)
      = ∑ l : Fin 512, x (ix2 r l) * y (ix2 l c) := by
  rw [Ideal.matmul_constant_zero_apply,
    ← Equiv.sum_comp (contrEquiv1 dot_S256x512_S512x40_S256x40_1_0_0_1_n_n 512 rfl rfl).symm]
  refine Finset.sum_congr rfl fun k _ => ?_
  have hk := contrEquiv1_symm_val dot_S256x512_S512x40_S256x40_1_0_0_1_n_n 512 rfl rfl k
  have el : dot_S256x512_S512x40_S256x40_1_0_0_1_n_n.lhsIdx (ix2 r c)
      ((contrEquiv1 dot_S256x512_S512x40_S256x40_1_0_0_1_n_n 512 rfl rfl).symm k) = ix2 r k :=
    funext fun a => Fin.ext (by
      match a with
      | ⟨0, _⟩ => exact lhs_0 _ _
      | ⟨1, _⟩ => exact (lhs_1 _ _).trans hk)
  have er : dot_S256x512_S512x40_S256x40_1_0_0_1_n_n.rhsIdx (ix2 r c)
      ((contrEquiv1 dot_S256x512_S512x40_S256x40_1_0_0_1_n_n 512 rfl rfl).symm k) = ix2 k c :=
    funext fun a => Fin.ext (by
      match a with
      | ⟨0, _⟩ => exact (rhs_0 _ _).trans hk
      | ⟨1, _⟩ => exact rhs_1 _ _)
  rw [el, er]

/-! ## The output block at one entry -/

/-- The output block at row `r`, class `c`: the row of the accumulator, scaled by `2⁻¹³`, contracted with the class's
    weights, plus the class's bias. -/
theorem pay2_apply (acc : Vec Ideal S256x512 .f32) (w : Vec Ideal S40x512 .f32) (b : Vec Ideal S40 .f32) (r : Fin 256) (c : Fin 40) :
    k0_pay2 (F := Ideal) acc w b (ix2 r c) = (∑ l : Fin 512, (acc (ix2 r l) * invN) * w (ix2 c l)) + b (ix1 c) := by
  unfold k0_pay2
  simp only [matmul]
  rw [addf_apply, matmul_zero_apply]
  congr 1
  · refine Finset.sum_congr rfl fun l _ => ?_
    rw [truncf_apply, mulf_apply, broadcast_apply, transpose_ix2_apply, truncf_apply]
    rfl
  · rw [broadcastTo_1b_ab_apply, shapeCast_a_1a_apply]

end Cert.Hist.Final

end
-- ==== Proof.Consts.lean ====
/-
  The float constants the two programs spell, as the extended reals their bit patterns denote: the box's ends `-2` and
  `2`, the bin width `1/2`, the normalisation `2⁻¹³` and its reciprocal `8192`, one, and the positive infinity a minimum
  starts from.  Stated once here so that no other module unfolds a bit pattern.
-/
import proofs.«107436_j28561532518446_1_alg».proof.Proof.Spec

noncomputable section

namespace Cert.Hist

open Idealize.ShloMosaic

theorem ofBits_one : Ideal.ofBits .f32 0x3F800000#32 = 1 := by
  simp [Ideal.ofBits, Ideal.ieee, -EReal.coe_mul]; norm_num

theorem lo_eq : lo = ((-2 : ℝ) : EReal) := by
  simp [lo, Ideal.ofBits, Ideal.ieee, -EReal.coe_mul]; norm_num

theorem hi_eq : hi = ((2 : ℝ) : EReal) := by
  simp [hi, Ideal.ofBits, Ideal.ieee, -EReal.coe_mul]; norm_num

theorem width_eq : width = ((1 / 2 : ℝ) : EReal) := by
  simp [width, Ideal.ofBits, Ideal.ieee, -EReal.coe_mul]; norm_num

theorem invN_eq : invN = ((1 / 8192 : ℝ) : EReal) := by
  simp [invN, Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_inf : Ideal.ofBits .f32 0x7F800000#32 = ⊤ := by
  simp [Ideal.ofBits, Ideal.ieee]

/-- The reference's quotient by `8192` is the kernel's product with `2⁻¹³`, on every extended real. -/
theorem div_N (c : EReal) : Ideal.div c (Ideal.ofBits .f32 0x46000000#32) = c * invN := by
  rw [ofBits_8192, invN_eq]
  exact Ideal.div_coe (by norm_num) c

end Cert.Hist

end
-- ==== Proof.Pointwise.lean ====
/-
  The two programs' per-point spellings are the indicator of being counted.

  A one-bit word widened to 32 bits and read as a real is one when the bit is set and zero otherwise; a comparison
  bit is set exactly when the comparison holds; a conjunction of bits folded over the three coordinates is set exactly
  when every bit is; the least of three numbers that are each one or zero is positive exactly when each is one. From
  these, the one-hot entries are indicators of "the bin is this lane", both validity spellings say "all three
  coordinates lie in the box", and the product of the three one-hot entries with the validity factor is the indicator
  that the point is counted in the voxel.
-/
import proofs.«107436_j28561532518446_1_alg».proof.Proof.Consts
import Idealize.ShloMosaic.Lib.Affine
import Mathlib.Data.Finset.Fold

noncomputable section

namespace Cert.Hist

open Idealize.ShloMosaic Idealize.ShloMosaic.ValueIdx

/-! ## One-bit words -/

/-- A Boolean's bit is set exactly when the Boolean is true. -/
private theorem ofBool_eq_one' {b : Bool} : BitVec.ofBool b = 1#1 ↔ b = true := by cases b <;> decide

/-- A one-bit word, widened to 32 bits and read as a real: one if the bit is set, else zero. -/
theorem widen_bit (c : BitVec 1) :
    ((((c.setWidth 32).toInt : ℝ)) : EReal) = if c = 1#1 then 1 else 0 := by
  rcases BitVec.eq_zero_or_eq_one c with h | h
  · subst h
    have : ((0#1 : BitVec 1).setWidth 32).toInt = 0 := by decide
    rw [this, if_neg (by decide)]; simp
  · subst h
    have : ((1#1 : BitVec 1).setWidth 32).toInt = 1 := by decide
    rw [this, if_pos rfl]; simp

/-- "At least", as a bit. -/
private theorem cmp_oge_eq_one (x y : EReal) : Ideal.cmp .oge x y = 1#1 ↔ y ≤ x := by
  simp [Ideal.cmp, ofBool_eq_one']

/-- "At most", as a bit. -/
private theorem cmp_ole_eq_one (x y : EReal) : Ideal.cmp .ole x y = 1#1 ↔ x ≤ y := by
  simp [Ideal.cmp, ofBool_eq_one']

/-- "Greater than", as a bit. -/
private theorem cmp_ogt_eq_one (x y : EReal) : Ideal.cmp .ogt x y = 1#1 ↔ y < x := by
  simp [Ideal.cmp, ofBool_eq_one']

/-! ## The one-hot entry -/

/-- A one-hot entry is one when the bin is the lane's number and zero otherwise. -/
theorem ohf_eq (b : BitVec 32) (a : Fin 8) : ohf b a = if b = BitVec.ofNat 32 a.val then 1 else 0 := by
  unfold ohf
  rw [widen_bit]
  by_cases h : b = BitVec.ofNat 32 a.val
  · rw [if_pos h, if_pos (IntOp.cmpi_eq.2 h)]
  · rw [if_neg h, if_neg (mt IntOp.cmpi_eq.1 h)]

/-! ## Lying in the box -/

/-- The conjunction of the two comparison bits is set exactly when the coordinate lies in the box. -/
theorem inBox_iff_bits (x : EReal) :
    IntOp.andi (Ideal.cmp .oge x lo) (Ideal.cmp .ole x hi) = 1#1 ↔ inBox x := by
  rw [IntOp.andi_eq_one, cmp_oge_eq_one, cmp_ole_eq_one]
  exact Iff.rfl

/-- A conjunction of bits folded over a finite set, starting from the set bit, is set exactly when every bit is. -/
private theorem fold_andi_eq_one (s : Finset (Fin 3)) (f : Fin 3 → BitVec 1) :
    s.fold IntOp.andi 1#1 f = 1#1 ↔ ∀ d ∈ s, f d = 1#1 := by
  induction s using Finset.induction_on with
  | empty => simp
  | insert a s ha ih =>
    rw [Finset.fold_insert ha, IntOp.andi_eq_one, ih]
    simp

/-- The validity bit is set exactly when all three coordinates lie in the box. -/
theorem validb_eq_one_iff (p : Fin 3 → EReal) : validb p = 1#1 ↔ ∀ d, inBox (p d) := by
  unfold validb
  rw [fold_andi_eq_one]
  constructor
  · intro h d; exact (inBox_iff_bits _).1 (h d (Finset.mem_univ d))
  · intro h d _; exact (inBox_iff_bits _).2 (h d)

/-- The least of finitely many extended reals, starting from the top, is positive exactly when each is. -/
private theorem pos_fold_min (s : Finset (Fin 3)) (g : Fin 3 → EReal) :
    0 < s.fold (FloatOps.minimumf (F := Ideal) (φ := .f32)) (⊤ : EReal) g ↔ ∀ d ∈ s, 0 < g d := by
  induction s using Finset.induction_on with
  | empty => simp
  | insert a s ha ih =>
    rw [Finset.fold_insert ha, Ideal.minimumf_def, lt_min_iff, ih]
    simp

open Classical in
/-- The validity factor is one when all three coordinates lie in the box and zero otherwise. -/
theorem validf_eq (p : Fin 3 → EReal) : validf p = if (∀ d, inBox (p d)) then 1 else 0 := by
  unfold validf
  rw [widen_bit, Ideal.ofBits_zero_f32, ofBits_inf, ofBits_one]
  have key : Ideal.cmp .ogt
      ((Finset.univ : Finset (Fin 3)).fold (FloatOps.minimumf (F := Ideal) (φ := .f32)) (⊤ : EReal)
        (fun d => Scalar.select (IntOp.andi (Ideal.cmp .oge (p d) lo) (Ideal.cmp .ole (p d) hi)) (1 : EReal) 0))
      0 = 1#1 ↔ ∀ d, inBox (p d) := by
    rw [cmp_ogt_eq_one, pos_fold_min]
    constructor
    · intro h d
      have hd := h d (Finset.mem_univ d)
      by_contra hn
      rw [← inBox_iff_bits] at hn
      rw [eq_zero_of_ne_one hn, select_zero] at hd
      exact lt_irrefl _ hd
    · intro h d _
      rw [(inBox_iff_bits _).2 (h d), select_one]
      exact zero_lt_one
  by_cases h : ∀ d, inBox (p d)
  · rw [if_pos h, if_pos (key.2 h)]
  · rw [if_neg h, if_neg (mt key.1 h)]

/-! ## The product of the factors -/

/-- The three one-hot entries times the validity factor: one when the point is counted in the voxel, else zero. -/
theorem factors_eq_hit (p : Fin 3 → EReal) (v j k : Fin 8) :
    ohf (bin (p 1)) j * ohf (bin (p 0)) v * (ohf (bin (p 2)) k * validf p) = hit p v j k := by
  rw [ohf_eq, ohf_eq, ohf_eq, validf_eq]
  unfold hit Hits
  split_ifs <;> simp_all

end Cert.Hist

end
-- ==== Proof.Scatter.lean ====
/-
  The reference's accumulating scatter of a flat update vector into a flat operand, read at one element, and the flat
  sum split by rows.

  The scatter has one index per update element (the index array is a column, its second axis the index vector of length
  one), no window axes, and the operand's single axis is the inserted one.  So update element j lands at operand element
  s exactly when the signed value of its index is s, and the operand element s of the result is its old value plus the
  sum of the update elements whose index is s.  The flat range of 8388608 = 1024 * 8192 update elements is then split
  into 1024 rows of 8192, and a row of 8192 into 8 tiles of 1024, by the usual division with remainder.
-/
import proofs.«107436_j28561532518446_1_alg».proof.ReferenceIdeal
import Idealize.ShloMosaic.Lib.ValueIdx
import Idealize.ShloMosaic.PureOps.Ideal.Laws
import Mathlib.Algebra.BigOperators.Fin
import Mathlib.Logic.Equiv.Fin.Basic

noncomputable section

open scoped BigOperators

namespace Cert.Hist.Scatter

open Idealize.ShloMosaic Idealize.ShloMosaic.ValueIdx Cert.ReferenceIdeal

/-! ## A sum over a product range, by quotient and remainder -/

/-- A sum over m * n consecutive naturals is the double sum over quotient and remainder. -/
theorem sum_mul {M : Type*} [AddCommMonoid M] (m n : Nat) (f : Fin (m * n) → M) :
    ∑ j : Fin (m * n), f j
      = ∑ a : Fin m, ∑ b : Fin n, f ⟨a.val * n + b.val, by
          have ha := a.isLt; have hb := b.isLt
          calc a.val * n + b.val < a.val * n + n := by omega
            _ = (a.val + 1) * n := by ring
            _ ≤ m * n := Nat.mul_le_mul_right n ha⟩ := by
  rw [← finProdFinEquiv.sum_comp, Fintype.sum_prod_type]
  refine Finset.sum_congr rfl fun a _ => Finset.sum_congr rfl fun b _ => ?_
  congr 1
  ext
  simp only [finProdFinEquiv_apply_val]
  ring

theorem sum_rows {M : Type*} [AddCommMonoid M] (f : Fin 8388608 → M) :
    ∑ j : Fin 8388608, f j = ∑ b : Fin 1024, ∑ n : Fin 8192, f ⟨b.val * 8192 + n.val, by have := b.isLt; have := n.isLt; omega⟩ :=
  sum_mul 1024 8192 f

theorem sum_tiles {M : Type*} [AddCommMonoid M] (f : Fin 8192 → M) :
    ∑ n : Fin 8192, f n = ∑ q : Fin 8, ∑ n : Fin 1024, f ⟨q.val * 1024 + n.val, by have := q.isLt; have := n.isLt; omega⟩ :=
  sum_mul 8 1024 f

/-! ## Where an update element lands -/

/-- The index-array position an update element reads its one start component from: row j, column 0. -/
theorem siIdx_eq [Facts] (j : Fin 8388608)
    (c : Fin scatter_S524288_S8388608x1_S8388608_n_0_0_1.scatterDimsToOperandDims.length) :
    scatter_S524288_S8388608x1_S8388608_n_0_0_1.siIdx (ix1 j) c = ix2 j (0 : Fin 1) := by
  funext b
  match b with
  | ⟨0, _⟩ => rfl
  | ⟨1, _⟩ =>
    have hc : c.val < 1 := c.isLt
    apply Fin.ext; show c.val = 0; omega

/-- The start on the operand's one axis is the signed value of the update element's index. -/
theorem start_eq [Facts] (idx : IVec S8388608x1 32) (j : Fin 8388608) (a : Fin 1) :
    scatter_S524288_S8388608x1_S8388608_n_0_0_1.start (ix1 j) idx a = (idx (ix2 j (0 : Fin 1))).toInt := by
  have ha : a = 0 := Subsingleton.elim _ _
  subst ha
  unfold ScatterDims.start
  rw [dif_pos (show (0 : Fin 1) ∈ scatter_S524288_S8388608x1_S8388608_n_0_0_1.scatterDimsToOperandDims from List.mem_singleton.2 rfl)]
  rw [siIdx_eq]

/-- There is no window axis: the window coordinate on the operand's one axis is zero. -/
theorem window_eq [Facts] (j : Fin 8388608) (a : Fin 1) :
    scatter_S524288_S8388608x1_S8388608_n_0_0_1.window (ix1 j) a = 0 := by
  have ha : a = 0 := Subsingleton.elim _ _
  subst ha
  unfold ScatterDims.window
  rw [dif_neg (show (0 : Fin 1) ∉ scatter_S524288_S8388608x1_S8388608_n_0_0_1.sKept by
    simp [ScatterDims.sKept, Shape.kept, scatter_S524288_S8388608x1_S8388608_n_0_0_1])]

theorem resultIdx_eq_some_iff [Facts] (idx : IVec S8388608x1 32) (j : Fin 8388608) (s : Fin 524288) :
    scatter_S524288_S8388608x1_S8388608_n_0_0_1.resultIdx? (ix1 j) idx = some (ix1 s) ↔ (idx (ix2 j (0 : Fin 1))).toInt = (s.val : ℤ) := by
  unfold ScatterDims.resultIdx?
  constructor
  · intro h
    split at h
    · rename_i hall
      have h1 := Option.some.inj h
      have h2 := congrArg Fin.val (congrFun h1 (0 : Fin 1))
      have h3 := (hall (0 : Fin 1)).1
      rw [start_eq, window_eq] at h3
      simp only [start_eq, window_eq] at h2
      change ((idx (ix2 j (0 : Fin 1))).toInt + ((0 : Nat) : ℤ)).toNat = s.val at h2
      omega
    · exact absurd h (by simp)
  · intro h
    have hs := s.isLt
    have hall : ∀ a : Fin S524288.rank, 0 ≤ scatter_S524288_S8388608x1_S8388608_n_0_0_1.start (ix1 j) idx a
          + (scatter_S524288_S8388608x1_S8388608_n_0_0_1.window (ix1 j) a : ℤ)
        ∧ scatter_S524288_S8388608x1_S8388608_n_0_0_1.start (ix1 j) idx a
          + (scatter_S524288_S8388608x1_S8388608_n_0_0_1.window (ix1 j) a : ℤ) < ((S524288.size a : Nat) : ℤ) := by
      intro a
      have ha : a = (0 : Fin 1) := Subsingleton.elim _ _
      subst ha
      rw [start_eq, window_eq, h]
      change (0 : ℤ) ≤ (s.val : ℤ) + ((0 : Nat) : ℤ) ∧ (s.val : ℤ) + ((0 : Nat) : ℤ) < ((524288 : Nat) : ℤ)
      omega
    rw [dif_pos hall]
    refine congrArg some (funext fun a => ?_)
    have ha : a = (0 : Fin 1) := Subsingleton.elim _ _
    subst ha
    apply Fin.ext
    change (scatter_S524288_S8388608x1_S8388608_n_0_0_1.start (ix1 j) idx (0 : Fin 1)
      + (scatter_S524288_S8388608x1_S8388608_n_0_0_1.window (ix1 j) (0 : Fin 1) : ℤ)).toNat = s.val
    rw [start_eq, window_eq, h]
    omega

open Classical in
theorem scatterAdd_apply [Facts] (x : S524288.Idx → EReal) (idx : IVec S8388608x1 32) (upd : S8388608.Idx → EReal) (s : Fin 524288) :
    Host.scatterAdd (F := Ideal) (φ := .f32) scatter_S524288_S8388608x1_S8388608_n_0_0_1 x idx upd (ix1 s)
      = x (ix1 s) + ∑ j : Fin 8388608, (if (idx (ix2 j (0 : Fin 1))).toInt = (s.val : ℤ) then upd (ix1 j) else 0) := by
  let e : Fin 8388608 ≃ S8388608.Idx :=
    { toFun := fun j => ix1 j
      invFun := fun i => i 0
      left_inv := fun _ => rfl
      right_inv := fun i => (eq_ix1 i).symm }
  show x (ix1 s) + ∑ j ∈ Finset.univ.filter
      (fun j => scatter_S524288_S8388608x1_S8388608_n_0_0_1.resultIdx? j idx = some (ix1 s)), upd j = _
  rw [Finset.sum_filter, ← e.sum_comp]
  refine congrArg (fun t => x (ix1 s) + t) (Finset.sum_congr rfl fun j _ => ?_)
  exact if_congr (resultIdx_eq_some_iff idx j s) rfl rfl

end Cert.Hist.Scatter

end
-- ==== Proof.KernelAcc.lean ====
/-
  The kernel's scratch accumulator after the last point of a row tile's run holds that tile's rows of the histogram.

  The grid's 32 points come in four runs of eight: point 8 q + s works on rows 256 q … 256 q + 255 and on the points
  1024 s … 1024 s + 1023 of each row.  The first point of a run clears the accumulator and adds its tile's counts, every
  later point adds its tile's counts to what the point before left.  So after the run's last point the accumulator at
  (r, l) is the sum over the eight point tiles of the counts of column l among that tile's points of row 256 q + r, and
  the eight tiles of 1024 points are the row's 8192 points, split by quotient and remainder.
-/
import proofs.«107436_j28561532518446_1_alg».proof.Proof.Blocks
import proofs.«107436_j28561532518446_1_alg».proof.Proof.Scatter
import proofs.«107436_j28561532518446_1_alg».proof.Proof.Spec
import Idealize.ShloMosaic.Lib.Pipeline.Value

noncomputable section

open scoped BigOperators

namespace Cert.Hist.KernelAcc

open Idealize.ShloMosaic Idealize.ShloMosaic.TcCoe Idealize.SL.Sem Idealize.ShloMosaic.ValueIdx
open Cert.KernelIdeal Cert.KernelIdeal.Gen Cert.KernelIdeal.Value Cert.Hist Cert.Hist.Pieces Cert.Hist.Blocks

variable (m : (ℓ : Loc nD τ sig) → Buf (Elt Ideal) ℓ)

/-! ## One point's step -/

/-- The cleared accumulator is zero everywhere. -/
theorem pay3_zero (i : S256x512.Idx) : (k0_pay3 (F := Ideal) i : EReal) = 0 := by
  unfold k0_pay3
  rw [shapeCast_self]
  exact Ideal.ofBits_zero_f32

/-- A run's first point leaves its tile's step over the cleared accumulator. -/
theorem scAt_first (c : Dev nD) (n : Nat) (hb : n < cfg0.N) (h0 : n % 8 = 0) (acc : Vec Ideal S256x512 .f32) :
    scAt0_0 m c n hb acc = step (F := Ideal) (iblk m c 0 ⟨n, hb⟩) (k0_pay3 (F := Ideal)) := by
  unfold scAt0_0
  rw [dif_pos h0, dif_neg (by omega)]
  exact sout_A (F := Ideal) c _ _ _ _ _ _ _ _ _ _ _ _ _ (iblk m c 0 ⟨n, hb⟩) (iblk m c 1 ⟨n, hb⟩) (iblk m c 2 ⟨n, hb⟩)

/-- Every later point leaves its tile's step over what the point before left. -/
theorem scAt_later (c : Dev nD) (n : Nat) (hb : n < cfg0.N) (h0 : ¬ n % 8 = 0) (acc : Vec Ideal S256x512 .f32) :
    scAt0_0 m c n hb acc = step (F := Ideal) (iblk m c 0 ⟨n, hb⟩) acc := by
  unfold scAt0_0
  rw [dif_neg h0]
  by_cases h1 : n % 8 = 7
  · rw [dif_pos h1]
    exact sout_C (F := Ideal) c _ _ _ _ _ _ _ _ _ _ _ _ _ (iblk m c 0 ⟨n, hb⟩) (iblk m c 1 ⟨n, hb⟩) (iblk m c 2 ⟨n, hb⟩) acc
  · rw [dif_neg h1]
    exact sout_B (F := Ideal) c _ _ _ _ _ _ _ _ _ _ _ _ _ (iblk m c 0 ⟨n, hb⟩) (iblk m c 1 ⟨n, hb⟩) (iblk m c 2 ⟨n, hb⟩) acc

/-! ## The addend of a point, and the block it counts -/

/-- Point n's addend at (r, l): how many points of its tile's row r are counted in column l (zero past the grid). -/
def addend (c : Dev nD) (n : Nat) (i : S256x512.Idx) : EReal :=
  if h : n < cfg0.N then
    cnt (fun (p : Fin 1024) (d : Fin 3) => (xblk m c ⟨n, h⟩ (ix3 (i 0 : Fin 256) p d) : EReal)) (i 1 : Fin 512)
  else 0

theorem addend_of_lt (c : Dev nD) (n : Nat) (h : n < cfg0.N) (r : Fin 256) (l : Fin 512) :
    addend m c n (ix2 r l)
      = cnt (fun (p : Fin 1024) (d : Fin 3) => (xblk m c ⟨n, h⟩ (ix3 r p d) : EReal)) l := by
  unfold addend
  rw [dif_pos h]

/-- Point 8 q + s shows rows 256 q … and points 1024 s … of the cloud. -/
theorem xblk_tile (c : Dev nD) (q : Nat) (s : Fin 8) (h : 8 * q + s.val < cfg0.N) (r : Fin 256) (p : Fin 1024) (d : Fin 3)
    (hr : q * 256 + r.val < 1024) :
    xblk m c ⟨8 * q + s.val, h⟩ (ix3 r p d)
      = Xarr m c (ix3 (⟨q * 256 + r.val, hr⟩ : Fin 1024)
          (⟨s.val * 1024 + p.val, by have := s.isLt; have := p.isLt; omega⟩ : Fin 8192) d) := by
  have hs := s.isLt
  have hp := p.isLt
  have e1 : (8 * q + s.val) / 8 = q := by omega
  have e2 : (8 * q + s.val) % 8 = s.val := by omega
  rw [xblk_apply m c ⟨8 * q + s.val, h⟩ r p d
    (by show (8 * q + s.val) / 8 * 256 + r.val < 1024; rw [e1]; exact hr)
    (by show (8 * q + s.val) % 8 * 1024 + p.val < 8192; rw [e2]; omega)]
  congr 1
  funext a
  match a with
  | ⟨0, _⟩ => exact Fin.ext (by show (8 * q + s.val) / 8 * 256 + r.val = q * 256 + r.val; rw [e1])
  | ⟨1, _⟩ => exact Fin.ext (by show (8 * q + s.val) % 8 * 1024 + p.val = s.val * 1024 + p.val; rw [e2])
  | ⟨2, _⟩ => rfl

/-! ## The run's fold -/

theorem acc_final
    (hstep : ∀ (x : Vec Ideal S256x1024x3 .f32) (acc : Vec Ideal S256x512 .f32) (r : Fin 256) (l : Fin 512),
      step (F := Ideal) x acc (ix2 r l) = acc (ix2 r l) + cnt (fun n d => x (ix3 r n d)) l)
    (c : Dev nD) (t : Fin cfg0.N) (h7 : t.val % 8 = 7) (r : Fin 256) (l : Fin 512) (hr : t.val / 8 * 256 + r.val < 1024) :
    (outsAt0 m c t.val t.isLt).2 (ix2 r l) = cnt (rowPts (Xarr m c) ⟨t.val / 8 * 256 + r.val, hr⟩) l := by
  have hN : cfg0.N = 32 := N_0
  have ht := t.isLt
  have ha : ∀ (h : 8 * (t.val / 8) < cfg0.N) (i : S256x512.Idx),
      (scAt0_0 m c (8 * (t.val / 8)) h (VS0_0.read (Elt Ideal) VS0_0.junk) i : EReal)
        = (fun _ => (0 : EReal)) i + addend m c (8 * (t.val / 8)) i := by
    intro h i
    obtain ⟨r', l', rfl⟩ : ∃ (r' : Fin 256) (l' : Fin 512), i = ix2 r' l' := ⟨i 0, i 1, eq_ix2 i⟩
    rw [scAt_first m c _ h (by omega), hstep, pay3_zero, addend_of_lt m c _ h]
  have hg : ∀ (n : Nat) (h : n < cfg0.N) (acc : S256x512.Idx → EReal) (i : S256x512.Idx),
      8 * (t.val / 8) < n → n ≤ 8 * (t.val / 8) + 7 → (scAt0_0 m c n h acc i : EReal) = acc i + addend m c n i := by
    intro n h acc i h1 h2
    obtain ⟨r', l', rfl⟩ : ∃ (r' : Fin 256) (l' : Fin 512), i = ix2 r' l' := ⟨i 0, i 1, eq_ix2 i⟩
    rw [scAt_later m c n h (by omega), hstep, addend_of_lt m c _ h]
  have key := Pipeline.accAt_add_apply (ι := S256x512.Idx) (β := EReal)
    (fun n h => scAt0_0 m c n h (VS0_0.read (Elt Ideal) VS0_0.junk)) (scAt0_0 m c) (fun _ => (0 : EReal)) (addend m c)
    (8 * (t.val / 8)) 7 ha hg (t.val % 8) (by omega) (by omega) (ix2 r l)
  rw [soutsAt0_0_eq m c t]
  refine key.trans ?_
  rw [h7, zero_add]
  have e : ∑ s ∈ Finset.range (7 + 1), addend m c (8 * (t.val / 8) + s) (ix2 r l)
      = ∑ s : Fin 8, addend m c (8 * (t.val / 8) + s.val) (ix2 r l) := Finset.sum_range _
  rw [e]
  unfold cnt
  rw [Scatter.sum_tiles]
  refine Finset.sum_congr rfl fun s _ => ?_
  have hs := s.isLt
  have hlt : 8 * (t.val / 8) + s.val < cfg0.N := by omega
  rw [addend_of_lt m c _ hlt r l]
  unfold cnt
  refine Finset.sum_congr rfl fun p _ => ?_
  refine congrArg (fun P => hit P (colV l) (colJ l) (colK l)) (funext fun d => ?_)
  exact xblk_tile m c (t.val / 8) s hlt r p d hr

end Cert.Hist.KernelAcc

end
-- ==== Proof.KernelValue.lean ====
/-
  The kernel's result array is the specification `G` of the argument arrays.

  One tile of 1024 points adds to each accumulator entry the number of its points counted in that entry's voxel.  Over
  the eight points of a row tile's run the accumulator therefore ends at the counts over all 8192 points of each of
  the tile's 256 rows.  The run's last point stores, for these rows and every class, the scaled counts contracted
  with the class's weights plus its bias: the rows `256 q …` of `G`.  The four flushing points' blocks tile the result.
-/
import proofs.«107436_j28561532518446_1_alg».proof.Proof.Blocks
import proofs.«107436_j28561532518446_1_alg».proof.Proof.Tile
import proofs.«107436_j28561532518446_1_alg».proof.Proof.Final
import proofs.«107436_j28561532518446_1_alg».proof.Proof.Pointwise
import proofs.«107436_j28561532518446_1_alg».proof.Proof.KernelAcc

noncomputable section

namespace Cert.Hist.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Hist Cert.Hist.Pieces Cert.Hist.Blocks

variable (m : (ℓ : Loc nD τ sig) → Buf (Elt Ideal) ℓ) (ρ : Dev nD → PrngReg)

/-- One tile adds to entry `(r, l)` the number of the tile's points of row `r` counted in column `l`: the product of
    the three one-hot entries and the validity factor is the indicator of being counted. -/
theorem step_apply (x : Vec Ideal S256x1024x3 .f32) (acc : Vec Ideal S256x512 .f32) (r : Fin 256) (l : Fin 512) :
    step (F := Ideal) x acc (ix2 r l) = acc (ix2 r l) + cnt (fun n d => x (ix3 r n d)) l := by
  unfold step
  rw [Tile.pay9_apply]
  unfold cnt
  exact congrArg (acc (ix2 r l) + ·)
    (Finset.sum_congr rfl fun n _ => factors_eq_hit (fun d => x (ix3 r n d)) (colV l) (colJ l) (colK l))

/-- After the last point of a row tile's run the accumulator holds the counts over all 8192 points of each of its rows. -/
theorem acc_final (c : Dev nD) (t : Fin cfg0.N) (h7 : t.val % 8 = 7) (r : Fin 256) (l : Fin 512) (hr : t.val / 8 * 256 + r.val < 1024) :
    (outsAt0 m c t.val t.isLt).2 (ix2 r l) = cnt (rowPts (Xarr m c) ⟨t.val / 8 * 256 + r.val, hr⟩) l :=
  KernelAcc.acc_final m step_apply c t h7 r l hr

/-- The output block a run's last point stores: the rows `256 q …` of `G`. -/
theorem out_apply (c : Dev nD) (t : Fin cfg0.N) (h0 : ¬t.val % 8 = 0) (h7 : t.val % 8 = 7) (r : Fin 256) (a : Fin 40)
    (hr : t.val / 8 * 256 + r.val < 1024) :
    (outsAt0 m c t.val t.isLt).1 (ix2 r a)
      = G (Xarr m c) (Warr m c) (Barr m c) (ix2 ⟨t.val / 8 * 256 + r.val, hr⟩ a) := by
  have h1 : (outsAt0 m c t.val t.isLt).1
      = k0_pay2 (F := Ideal) ((outsAt0 m c t.val t.isLt).2) (wblk m c t) (bblk m c t) := by
    rw [outsAt0_C m c t h0 h7]
    dsimp only
    rw [out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2,
      sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2]
  rw [h1, Final.pay2_apply]
  unfold G
  refine congrArg₂ (· + ·) (Finset.sum_congr rfl fun l _ => ?_) (bblk_apply m c t a)
  rw [acc_final m c t h7 r l hr, wblk_apply]

/-- WHAT A FLUSHING POINT WRITES BACK is its block of `G`. -/
theorem flushed_eq (c : Dev nD) (t : Fin cfg0.N) (hf : (cfg0.win 3).flush t = true) :
    (dats m 0 c).flushed 3 t = ((cfg0.win 3).blk t).view.read (Elt Ideal) (G (Xarr m c) (Warr m c) (Barr m c)) := by
  have h7 : t.val % 8 = 7 := (flush0_3 t).mp hf
  have h0 : ¬t.val % 8 = 0 := by omega
  have hN : t.val < 32 := lt_of_lt_of_eq t.isLt (show cfg0.N = 32 from N_0)
  obtain ⟨e0, e1⟩ := idx3 t
  rw [flushed3]
  funext j
  show (outsAt0 m c t.val t.isLt).1 j = G (Xarr m c) (Warr m c) (Barr m c) (((cfg0.win 3).blk t).view.emb j)
  have hj0 : (j 0).val < 256 := (j 0).isLt
  have hj1 : (j 1).val < 40 := (j 1).isLt
  have hr : t.val / 8 * 256 + (j 0).val < 1024 := by omega
  have hj : j = ix2 (⟨(j 0).val, hj0⟩ : Fin 256) (⟨(j 1).val, hj1⟩ : Fin 40) := by
    funext a; match a with | ⟨0, _⟩ => rfl | ⟨1, _⟩ => rfl
  have key := out_apply m c t h0 h7 ⟨(j 0).val, hj0⟩ ⟨(j 1).val, hj1⟩ hr
  rw [← hj] at key
  rw [key]
  congr 1
  funext a
  apply Fin.ext
  match a with
  | ⟨0, _⟩ => show t.val / 8 * 256 + (j 0).val = win0_3.index t (0 : Fin 2) * 256 + 1 * (j 0).val; rw [e0]; omega
  | ⟨1, _⟩ => show (j 1).val = win0_3.index t (1 : Fin 2) * 40 + 1 * (j 1).val; rw [e1]; omega

/-- An index of the result is in point `t`'s block iff each coordinate is in the block's range on its axis. -/
theorem mem_blk (t : Fin cfg0.N) (i : S1024x40.Idx) :
    i ∈ ((cfg0.win 3).blk t).view.set ↔ ∀ a : Fin 2, win0_3.index t a * S256x40.size a ≤ (i a).val ∧ (i a).val < win0_3.index t a * S256x40.size a + S256x40.size a := by
  show i ∈ ((View.whole main_v0).slice (win0_3.rect t)).set ↔ _
  rw [View.set_slice_whole, Rect.mem_set_unit]
  exact Iff.rfl

/-- Every row of the result lies in the block of its row tile's last point. -/
theorem cover (i : S1024x40.Idx) : ∃ t : Fin cfg0.N, (cfg0.win 3).flush t = true ∧ i ∈ ((cfg0.win 3).blk t).view.set := by
  have hi0 : (i 0).val < 1024 := (i 0).isLt
  have hi1 : (i 1).val < 40 := (i 1).isLt
  have hN : cfg0.N = 32 := N_0
  let t : Fin cfg0.N := ⟨8 * ((i 0).val / 256) + 7, by omega⟩
  have htv : t.val = 8 * ((i 0).val / 256) + 7 := rfl
  obtain ⟨e0, e1⟩ := idx3 t
  refine ⟨t, (flush0_3 t).mpr (by omega), ?_⟩
  rw [mem_blk]
  intro a
  match a with
  | ⟨0, _⟩ => show win0_3.index t (0 : Fin 2) * 256 ≤ (i 0).val ∧ (i 0).val < win0_3.index t (0 : Fin 2) * 256 + 256; rw [e0]; omega
  | ⟨1, _⟩ => show win0_3.index t (1 : Fin 2) * 40 ≤ (i 1).val ∧ (i 1).val < win0_3.index t (1 : Fin 2) * 40 + 40; rw [e1]; omega

/-- THE RESULT ARRAY after the run is `G` of the argument arrays. -/
theorem final (c : Dev nD) : (dats m 0 c).arrAt 3 cfg0.N = G (Xarr m c) (Warr m c) (Barr m c) :=
  (dats m 0 c).arrAt_eq_of_cover 3 (G (Xarr m c) (Warr m c) (Barr m c)) (fun t hf => flushed_eq m c t hf) cover

/-- The kernel's run: the result at `G`, the arguments unchanged. -/
theorem run : θ_run defs (onTc (τ := τ) (main (F := Ideal))) ⟨m, fun _ => 0, ρ⟩ fun r => ∀ c : Dev nD,
      r.2.mem ((c : Thread nD τ).loc main_v0) = G (Xarr m c) (Warr m c) (Barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Hist.KernelValue

end
-- ==== Proof.RefRun.lean ====
/-
  The reference program's run, read stretch by stretch.

  The program is a straight line of 62 host operations.  It is cut into seven consecutive stretches; for each stretch
  and an ARBITRARY valuation of the buffers before it, the value the stretch leaves in the one or two buffers later
  stretches read is the corresponding stage function of the values it reads, and the buffers it does not write
  (the three arguments, and earlier results still to be read) are as they were.  Chaining the seven facts gives the
  value of the result buffer after the whole line as the last stage function of the three arguments' launch contents;
  the run theorem of a straight line then states it of every weakly fair execution.
-/
import proofs.«107436_j28561532518446_1_alg».proof.Proof.RefOps
import proofs.«107436_j28561532518446_1_alg».proof.Proof.RefRead

noncomputable section

namespace Cert.ReferenceIdeal.RunH

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- The first stretch: the bin of every coordinate, `min (⌊(x + 2) / 0.5⌋ as a 32-bit integer) 7`. -/
abbrev opsA : List (HloOp τ sig (Elt F)) :=
  [ nullary main_cst (constant S_ .f32 0xC0000000#32),
    unary main_cst main_v0 (broadcastInDim S1024x8192x3 ![] bcast_S_S1024x8192x3 : (⟨S_, .f32⟩ : BufTy).Contents (Elt F) → (⟨S1024x8192x3, .f32⟩ : BufTy).Contents (Elt F)),
    binary main_arg0 main_v0 main_v1 (subf : (⟨S1024x8192x3, .f32⟩ : BufTy).Contents (Elt F) → (⟨S1024x8192x3, .f32⟩ : BufTy).Contents (Elt F) → (⟨S1024x8192x3, .f32⟩ : BufTy).Contents (Elt F)),
    nullary main_cst_0 (constant S_ .f32 0x3F000000#32),
    unary main_cst_0 main_v2 (broadcastInDim S1024x8192x3 ![] bcast_S_S1024x8192x3 : (⟨S_, .f32⟩ : BufTy).Contents (Elt F) → (⟨S1024x8192x3, .f32⟩ : BufTy).Contents (Elt F)),
    binary main_v1 main_v2 main_v3 (Host.divf : (⟨S1024x8192x3, .f32⟩ : BufTy).Contents (Elt F) → (⟨S1024x8192x3, .f32⟩ : BufTy).Contents (Elt F) → (⟨S1024x8192x3, .f32⟩ : BufTy).Contents (Elt F)),
    unary main_v3 main_v4 (Host.floor : (⟨S1024x8192x3, .f32⟩ : BufTy).Contents (Elt F) → (⟨S1024x8192x3, .f32⟩ : BufTy).Contents (Elt F)),
    unary main_v4 main_v5 (fptosi 32 : (⟨S1024x8192x3, .f32⟩ : BufTy).Contents (Elt F) → (⟨S1024x8192x3, .i32⟩ : BufTy).Contents (Elt F)),
    nullary main_c (constantI S_ 32 7#32),
    unary main_c main_v6 (broadcastInDim S1024x8192x3 ![] bcast_S_S1024x8192x3 : (⟨S_, .i32⟩ : BufTy).Contents (Elt F) → (⟨S1024x8192x3, .i32⟩ : BufTy).Contents (Elt F)),
    binary main_v5 main_v6 main_v7 (minsi : (⟨S1024x8192x3, .i32⟩ : BufTy).Contents (Elt F) → (⟨S1024x8192x3, .i32⟩ : BufTy).Contents (Elt F) → (⟨S1024x8192x3, .i32⟩ : BufTy).Contents (Elt F)) ]

/-- The second stretch: the validity bit of every point, the conjunction over its three coordinates of `-2 ≤ x ∧ x ≤ 2`. -/
abbrev opsB : List (HloOp τ sig (Elt F)) :=
  [ nullary main_cst_1 (constant S_ .f32 0xC0000000#32),
    unary main_cst_1 main_v8 (broadcastInDim S1024x8192x3 ![] bcast_S_S1024x8192x3 : (⟨S_, .f32⟩ : BufTy).Contents (Elt F) → (⟨S1024x8192x3, .f32⟩ : BufTy).Contents (Elt F)),
    binary main_arg0 main_v8 main_v9 (cmpf .oge : (⟨S1024x8192x3, .f32⟩ : BufTy).Contents (Elt F) → (⟨S1024x8192x3, .f32⟩ : BufTy).Contents (Elt F) → (⟨S1024x8192x3, .i1⟩ : BufTy).Contents (Elt F)),
    nullary main_cst_2 (constant S_ .f32 0x40000000#32),
    unary main_cst_2 main_v10 (broadcastInDim S1024x8192x3 ![] bcast_S_S1024x8192x3 : (⟨S_, .f32⟩ : BufTy).Contents (Elt F) → (⟨S1024x8192x3, .f32⟩ : BufTy).Contents (Elt F)),
    binary main_arg0 main_v10 main_v11 (cmpf .ole : (⟨S1024x8192x3, .f32⟩ : BufTy).Contents (Elt F) → (⟨S1024x8192x3, .f32⟩ : BufTy).Contents (Elt F) → (⟨S1024x8192x3, .i1⟩ : BufTy).Contents (Elt F)),
    binary main_v9 main_v11 main_v12 (andi : (⟨S1024x8192x3, .i1⟩ : BufTy).Contents (Elt F) → (⟨S1024x8192x3, .i1⟩ : BufTy).Contents (Elt F) → (⟨S1024x8192x3, .i1⟩ : BufTy).Contents (Elt F)),
    nullary main_c_3 (constantI S_ 1 1#1),
    binary main_v12 main_c_3 main_v13 ((fun x v => Host.reduce IntOp.andi x v reducesTo_S1024x8192x3_S1024x8192_d2 h_S_) : (⟨S1024x8192x3, .i1⟩ : BufTy).Contents (Elt F) → (⟨S_, .i1⟩ : BufTy).Contents (Elt F) → (⟨S1024x8192, .i1⟩ : BufTy).Contents (Elt F)) ]

/-- The third stretch: the voxel number `8 (8 bin₀ + bin₁) + bin₂` of every point, from the three slices of the bins. -/
abbrev opsC : List (HloOp τ sig (Elt F)) :=
  [ unary main_v7 main_v14 ((extractStridedSlice S1024x8192x1 ![0, 0, 0] · slices_S1024x8192x3_S1024x8192x1_0_0_0) : (⟨S1024x8192x3, .i32⟩ : BufTy).Contents (Elt F) → (⟨S1024x8192x1, .i32⟩ : BufTy).Contents (Elt F)),
    reshape main_v14 main_v15 rfl shapeCasts_S1024x8192x1_S1024x8192,
    nullary main_c_4 (constantI S_ 32 8#32),
    unary main_c_4 main_v16 (broadcastInDim S1024x8192 ![] bcast_S_S1024x8192 : (⟨S_, .i32⟩ : BufTy).Contents (Elt F) → (⟨S1024x8192, .i32⟩ : BufTy).Contents (Elt F)),
    binary main_v15 main_v16 main_v17 (muli : (⟨S1024x8192, .i32⟩ : BufTy).Contents (Elt F) → (⟨S1024x8192, .i32⟩ : BufTy).Contents (Elt F) → (⟨S1024x8192, .i32⟩ : BufTy).Contents (Elt F)),
    unary main_v7 main_v18 ((extractStridedSlice S1024x8192x1 ![0, 0, 1] · slices_S1024x8192x3_S1024x8192x1_0_0_1) : (⟨S1024x8192x3, .i32⟩ : BufTy).Contents (Elt F) → (⟨S1024x8192x1, .i32⟩ : BufTy).Contents (Elt F)),
    reshape main_v18 main_v19 rfl shapeCasts_S1024x8192x1_S1024x8192,
    binary main_v17 main_v19 main_v20 (addi : (⟨S1024x8192, .i32⟩ : BufTy).Contents (Elt F) → (⟨S1024x8192, .i32⟩ : BufTy).Contents (Elt F) → (⟨S1024x8192, .i32⟩ : BufTy).Contents (Elt F)),
    nullary main_c_5 (constantI S_ 32 8#32),
    unary main_c_5 main_v21 (broadcastInDim S1024x8192 ![] bcast_S_S1024x8192 : (⟨S_, .i32⟩ : BufTy).Contents (Elt F) → (⟨S1024x8192, .i32⟩ : BufTy).Contents (Elt F)),
    binary main_v20 main_v21 main_v22 (muli : (⟨S1024x8192, .i32⟩ : BufTy).Contents (Elt F) → (⟨S1024x8192, .i32⟩ : BufTy).Contents (Elt F) → (⟨S1024x8192, .i32⟩ : BufTy).Contents (Elt F)),
    unary main_v7 main_v23 ((extractStridedSlice S1024x8192x1 ![0, 0, 2] · slices_S1024x8192x3_S1024x8192x1_0_0_2) : (⟨S1024x8192x3, .i32⟩ : BufTy).Contents (Elt F) → (⟨S1024x8192x1, .i32⟩ : BufTy).Contents (Elt F)),
    reshape main_v23 main_v24 rfl shapeCasts_S1024x8192x1_S1024x8192,
    binary main_v22 main_v24 main_v25 (addi : (⟨S1024x8192, .i32⟩ : BufTy).Contents (Elt F) → (⟨S1024x8192, .i32⟩ : BufTy).Contents (Elt F) → (⟨S1024x8192, .i32⟩ : BufTy).Contents (Elt F)) ]

/-- The fourth stretch: the row offset `512 b` added to the voxel number, and the out-of-range constant `524288`. -/
abbrev opsD : List (HloOp τ sig (Elt F)) :=
  [ nullary main_v26 (iotaInDim S1024 32 0),
    unary main_v26 main_v27 (broadcastInDim S1024x1 ![0] bcast_S1024_S1024x1_0 : (⟨S1024, .i32⟩ : BufTy).Contents (Elt F) → (⟨S1024x1, .i32⟩ : BufTy).Contents (Elt F)),
    nullary main_c_6 (constantI S_ 32 512#32),
    unary main_c_6 main_v28 (broadcastInDim S1024x1 ![] bcast_S_S1024x1 : (⟨S_, .i32⟩ : BufTy).Contents (Elt F) → (⟨S1024x1, .i32⟩ : BufTy).Contents (Elt F)),
    binary main_v27 main_v28 main_v29 (muli : (⟨S1024x1, .i32⟩ : BufTy).Contents (Elt F) → (⟨S1024x1, .i32⟩ : BufTy).Contents (Elt F) → (⟨S1024x1, .i32⟩ : BufTy).Contents (Elt F)),
    unary main_v29 main_v30 (broadcastInDim S1024x8192 ![0, 1] bcast_S1024x1_S1024x8192_0_1 : (⟨S1024x1, .i32⟩ : BufTy).Contents (Elt F) → (⟨S1024x8192, .i32⟩ : BufTy).Contents (Elt F)),
    binary main_v30 main_v25 main_v31 (addi : (⟨S1024x8192, .i32⟩ : BufTy).Contents (Elt F) → (⟨S1024x8192, .i32⟩ : BufTy).Contents (Elt F) → (⟨S1024x8192, .i32⟩ : BufTy).Contents (Elt F)),
    nullary main_c_7 (constantI S_ 32 524288#32) ]

/-- The fifth stretch, the three operations of the inlined selection: the segment number of a valid point, `524288` otherwise. -/
abbrev opsE : List (HloOp τ sig (Elt F)) :=
  [ TRef.unary (TRef.of (T := ⟨S_, .i32⟩) main_c_7) (TRef.of (T := ⟨S_, .i32⟩) main_call0_v0) id,
    TRef.unary (TRef.of (T := ⟨S_, .i32⟩) main_call0_v0) (TRef.of (T := ⟨S1024x8192, .i32⟩) main_call0_v1) (broadcastInDim S1024x8192 ![] bcast_S_S1024x8192),
    TRef.ternary (TRef.of (T := ⟨S1024x8192, .i1⟩) main_v13) (TRef.of (T := ⟨S1024x8192, .i32⟩) main_v31) (TRef.of (T := ⟨S1024x8192, .i32⟩) main_call0_v1) (TRef.of (T := ⟨S1024x8192, .i32⟩) main_v32) select ]

/-- The sixth stretch: the scatter-add of ones at the flattened segment numbers into `524288` zeros, read as `1024 × 512`. -/
abbrev opsF : List (HloOp τ sig (Elt F)) :=
  [ nullary main_cst_8 (constant S_ .f32 0x3F800000#32),
    unary main_cst_8 main_v33 (broadcastInDim S1024x8192 ![] bcast_S_S1024x8192 : (⟨S_, .f32⟩ : BufTy).Contents (Elt F) → (⟨S1024x8192, .f32⟩ : BufTy).Contents (Elt F)),
    reshape main_v33 main_v34 rfl shapeCasts_S1024x8192_S8388608,
    reshape main_v32 main_v35 rfl shapeCasts_S1024x8192_S8388608,
    nullary main_cst_9 (constant S_ .f32 0x00000000#32),
    unary main_cst_9 main_v36 (broadcastInDim S524288 ![] bcast_S_S524288 : (⟨S_, .f32⟩ : BufTy).Contents (Elt F) → (⟨S524288, .f32⟩ : BufTy).Contents (Elt F)),
    unary main_v35 main_v37 (broadcastInDim S8388608x1 ![0] bcast_S8388608_S8388608x1_0 : (⟨S8388608, .i32⟩ : BufTy).Contents (Elt F) → (⟨S8388608x1, .i32⟩ : BufTy).Contents (Elt F)),
    ternary main_v36 main_v37 main_v34 main_v38 ((fun x i u => Host.scatterAdd scatter_S524288_S8388608x1_S8388608_n_0_0_1 x i u) : (⟨S524288, .f32⟩ : BufTy).Contents (Elt F) → (⟨S8388608x1, .i32⟩ : BufTy).Contents (Elt F) → (⟨S8388608, .f32⟩ : BufTy).Contents (Elt F) → (⟨S524288, .f32⟩ : BufTy).Contents (Elt F)),
    reshape main_v38 main_v39 rfl shapeCasts_S524288_S1024x512 ]

/-- The last stretch: the quotient by `8192`, the contraction with the transposed weights, and the broadcast bias added. -/
abbrev opsG : List (HloOp τ sig (Elt F)) :=
  [ nullary main_cst_10 (constant S_ .f32 0x46000000#32),
    unary main_cst_10 main_v40 (broadcastInDim S1024x512 ![] bcast_S_S1024x512 : (⟨S_, .f32⟩ : BufTy).Contents (Elt F) → (⟨S1024x512, .f32⟩ : BufTy).Contents (Elt F)),
    binary main_v39 main_v40 main_v41 (Host.divf : (⟨S1024x512, .f32⟩ : BufTy).Contents (Elt F) → (⟨S1024x512, .f32⟩ : BufTy).Contents (Elt F) → (⟨S1024x512, .f32⟩ : BufTy).Contents (Elt F)),
    unary main_arg1 main_v42 ((transpose S512x40 [1, 0] · transposes_S40x512_S512x40_1_0) : (⟨S40x512, .f32⟩ : BufTy).Contents (Elt F) → (⟨S512x40, .f32⟩ : BufTy).Contents (Elt F)),
    binary main_v41 main_v42 main_v43 ((fun l r => Host.dotGeneral dot_S1024x512_S512x40_S1024x40_1_0_0_1_n_n none l r) : (⟨S1024x512, .f32⟩ : BufTy).Contents (Elt F) → (⟨S512x40, .f32⟩ : BufTy).Contents (Elt F) → (⟨S1024x40, .f32⟩ : BufTy).Contents (Elt F)),
    unary main_arg2 main_v44 (broadcastInDim S1x40 ![1] bcast_S40_S1x40_1 : (⟨S40, .f32⟩ : BufTy).Contents (Elt F) → (⟨S1x40, .f32⟩ : BufTy).Contents (Elt F)),
    unary main_v44 main_v45 (broadcastInDim S1024x40 ![0, 1] bcast_S1x40_S1024x40_0_1 : (⟨S1x40, .f32⟩ : BufTy).Contents (Elt F) → (⟨S1024x40, .f32⟩ : BufTy).Contents (Elt F)),
    binary main_v43 main_v45 main_v46 (addf : (⟨S1024x40, .f32⟩ : BufTy).Contents (Elt F) → (⟨S1024x40, .f32⟩ : BufTy).Contents (Elt F) → (⟨S1024x40, .f32⟩ : BufTy).Contents (Elt F)) ]

set_option maxRecDepth 8192 in
/-- The line is its seven stretches in a row. -/
theorem ops_split : (ops : List (HloOp τ sig (Elt F))) = opsA ++ (opsB ++ (opsC ++ (opsD ++ (opsE ++ (opsF ++ opsG))))) := rfl

/-- The buffers after two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The bins -/

theorem A_v7 (W : Valuation τ sig (Elt F)) :
    after opsA W (Proc.devRef .tc main_v7) = ReadP.val_main_v7 (F := F) (W (Proc.devRef .tc main_arg0)) := by
  after_results_simp <;> rfl

theorem A_keep_arg0 (W : Valuation τ sig (Elt F)) :
    after opsA W (Proc.devRef .tc main_arg0) = W (Proc.devRef .tc main_arg0) := by
  after_results_simp

theorem A_keep_arg1 (W : Valuation τ sig (Elt F)) :
    after opsA W (Proc.devRef .tc main_arg1) = W (Proc.devRef .tc main_arg1) := by
  after_results_simp

theorem A_keep_arg2 (W : Valuation τ sig (Elt F)) :
    after opsA W (Proc.devRef .tc main_arg2) = W (Proc.devRef .tc main_arg2) := by
  after_results_simp

/-! ## The validity bits -/

theorem B_v13 (W : Valuation τ sig (Elt F)) :
    after opsB W (Proc.devRef .tc main_v13) = ReadP.val_main_v13 (F := F) (W (Proc.devRef .tc main_arg0)) := by
  after_results_simp <;> rfl

theorem B_keep_v7 (W : Valuation τ sig (Elt F)) :
    after opsB W (Proc.devRef .tc main_v7) = W (Proc.devRef .tc main_v7) := by
  after_results_simp

theorem B_keep_arg0 (W : Valuation τ sig (Elt F)) :
    after opsB W (Proc.devRef .tc main_arg0) = W (Proc.devRef .tc main_arg0) := by
  after_results_simp

theorem B_keep_arg1 (W : Valuation τ sig (Elt F)) :
    after opsB W (Proc.devRef .tc main_arg1) = W (Proc.devRef .tc main_arg1) := by
  after_results_simp

theorem B_keep_arg2 (W : Valuation τ sig (Elt F)) :
    after opsB W (Proc.devRef .tc main_arg2) = W (Proc.devRef .tc main_arg2) := by
  after_results_simp

/-! ## The voxel numbers -/

theorem C_v25 (W : Valuation τ sig (Elt F)) (x0 : (⟨S1024x8192x3, .f32⟩ : BufTy).Contents (Elt F))
    (h7 : W (Proc.devRef .tc main_v7) = ReadP.val_main_v7 (F := F) x0) :
    after opsC W (Proc.devRef .tc main_v25) = ReadP.val_main_v25 (F := F) x0 := by
  after_results_simp
  rw [h7]
  rfl

theorem C_keep_v13 (W : Valuation τ sig (Elt F)) :
    after opsC W (Proc.devRef .tc main_v13) = W (Proc.devRef .tc main_v13) := by
  after_results_simp

theorem C_keep_arg0 (W : Valuation τ sig (Elt F)) :
    after opsC W (Proc.devRef .tc main_arg0) = W (Proc.devRef .tc main_arg0) := by
  after_results_simp

theorem C_keep_arg1 (W : Valuation τ sig (Elt F)) :
    after opsC W (Proc.devRef .tc main_arg1) = W (Proc.devRef .tc main_arg1) := by
  after_results_simp

theorem C_keep_arg2 (W : Valuation τ sig (Elt F)) :
    after opsC W (Proc.devRef .tc main_arg2) = W (Proc.devRef .tc main_arg2) := by
  after_results_simp

/-! ## The row offsets -/

theorem D_v31 (W : Valuation τ sig (Elt F)) (x0 : (⟨S1024x8192x3, .f32⟩ : BufTy).Contents (Elt F))
    (h25 : W (Proc.devRef .tc main_v25) = ReadP.val_main_v25 (F := F) x0) :
    after opsD W (Proc.devRef .tc main_v31) = ReadP.val_main_v31 (F := F) x0 := by
  after_results_simp
  rw [h25]
  rfl

theorem D_c_7 (W : Valuation τ sig (Elt F)) :
    after opsD W (Proc.devRef .tc main_c_7) = ReadP.val_main_c_7 (F := F) := by
  after_results_simp <;> rfl

theorem D_keep_v13 (W : Valuation τ sig (Elt F)) :
    after opsD W (Proc.devRef .tc main_v13) = W (Proc.devRef .tc main_v13) := by
  after_results_simp

theorem D_keep_arg0 (W : Valuation τ sig (Elt F)) :
    after opsD W (Proc.devRef .tc main_arg0) = W (Proc.devRef .tc main_arg0) := by
  after_results_simp

theorem D_keep_arg1 (W : Valuation τ sig (Elt F)) :
    after opsD W (Proc.devRef .tc main_arg1) = W (Proc.devRef .tc main_arg1) := by
  after_results_simp

theorem D_keep_arg2 (W : Valuation τ sig (Elt F)) :
    after opsD W (Proc.devRef .tc main_arg2) = W (Proc.devRef .tc main_arg2) := by
  after_results_simp

/-! ## The selection -/

theorem E_v32 (W : Valuation τ sig (Elt F)) (x0 : (⟨S1024x8192x3, .f32⟩ : BufTy).Contents (Elt F))
    (h13 : W (Proc.devRef .tc main_v13) = ReadP.val_main_v13 (F := F) x0)
    (h31 : W (Proc.devRef .tc main_v31) = ReadP.val_main_v31 (F := F) x0)
    (h7 : W (Proc.devRef .tc main_c_7) = ReadP.val_main_c_7 (F := F)) :
    after opsE W (Proc.devRef .tc main_v32) = ReadP.val_main_v32 (F := F) x0 := by
  after_results_simp
  simp only [TRef.ofBuf, TRef.toBuf, cast_eq]
  rw [h13, h31, h7]
  rfl

theorem E_keep_arg0 (W : Valuation τ sig (Elt F)) :
    after opsE W (Proc.devRef .tc main_arg0) = W (Proc.devRef .tc main_arg0) := by
  after_results_simp

theorem E_keep_arg1 (W : Valuation τ sig (Elt F)) :
    after opsE W (Proc.devRef .tc main_arg1) = W (Proc.devRef .tc main_arg1) := by
  after_results_simp

theorem E_keep_arg2 (W : Valuation τ sig (Elt F)) :
    after opsE W (Proc.devRef .tc main_arg2) = W (Proc.devRef .tc main_arg2) := by
  after_results_simp

/-! ## The histogram -/

theorem F_v39 (W : Valuation τ sig (Elt F)) (x0 : (⟨S1024x8192x3, .f32⟩ : BufTy).Contents (Elt F))
    (h32 : W (Proc.devRef .tc main_v32) = ReadP.val_main_v32 (F := F) x0) :
    after opsF W (Proc.devRef .tc main_v39) = ReadP.val_main_v39 (F := F) x0 := by
  after_results_simp
  rw [h32]
  rfl

theorem F_keep_arg0 (W : Valuation τ sig (Elt F)) :
    after opsF W (Proc.devRef .tc main_arg0) = W (Proc.devRef .tc main_arg0) := by
  after_results_simp

theorem F_keep_arg1 (W : Valuation τ sig (Elt F)) :
    after opsF W (Proc.devRef .tc main_arg1) = W (Proc.devRef .tc main_arg1) := by
  after_results_simp

theorem F_keep_arg2 (W : Valuation τ sig (Elt F)) :
    after opsF W (Proc.devRef .tc main_arg2) = W (Proc.devRef .tc main_arg2) := by
  after_results_simp

/-! ## The classifier -/

theorem G_v46 (W : Valuation τ sig (Elt F)) (x0 : (⟨S1024x8192x3, .f32⟩ : BufTy).Contents (Elt F))
    (h39 : W (Proc.devRef .tc main_v39) = ReadP.val_main_v39 (F := F) x0) :
    after opsG W (Proc.devRef .tc main_v46)
      = ReadP.val_main_v46 (F := F) x0 (W (Proc.devRef .tc main_arg1)) (W (Proc.devRef .tc main_arg2)) := by
  after_results_simp
  rw [h39]
  rfl

theorem G_keep_arg0 (W : Valuation τ sig (Elt F)) :
    after opsG W (Proc.devRef .tc main_arg0) = W (Proc.devRef .tc main_arg0) := by
  after_results_simp

theorem G_keep_arg1 (W : Valuation τ sig (Elt F)) :
    after opsG W (Proc.devRef .tc main_arg1) = W (Proc.devRef .tc main_arg1) := by
  after_results_simp

theorem G_keep_arg2 (W : Valuation τ sig (Elt F)) :
    after opsG W (Proc.devRef .tc main_arg2) = W (Proc.devRef .tc main_arg2) := by
  after_results_simp

/-! ## The whole line -/

/-- After the whole line from any valuation `V`: the result buffer holds the last stage function of the three arguments'
    contents in `V`, and the arguments are as they were. -/
theorem after_ops (V : Valuation τ sig (Elt F)) :
    after ops V (Proc.devRef .tc main_v46)
        = ReadP.val_main_v46 (F := F) (V (Proc.devRef .tc main_arg0)) (V (Proc.devRef .tc main_arg1)) (V (Proc.devRef .tc main_arg2))
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2) := by
  rw [ops_split, after_app, after_app, after_app, after_app, after_app, after_app]
  -- the valuation after each stretch, with what it holds at the buffers still to be read
  generalize hA : after opsA V = VA
  have a7 : VA (Proc.devRef .tc main_v7) = ReadP.val_main_v7 (F := F) (V (Proc.devRef .tc main_arg0)) := by rw [← hA, A_v7]
  have a0 : VA (Proc.devRef .tc main_arg0) = V (Proc.devRef .tc main_arg0) := by rw [← hA, A_keep_arg0]
  have a1 : VA (Proc.devRef .tc main_arg1) = V (Proc.devRef .tc main_arg1) := by rw [← hA, A_keep_arg1]
  have a2 : VA (Proc.devRef .tc main_arg2) = V (Proc.devRef .tc main_arg2) := by rw [← hA, A_keep_arg2]
  clear hA
  generalize hB : after opsB VA = VB
  have b13 : VB (Proc.devRef .tc main_v13) = ReadP.val_main_v13 (F := F) (V (Proc.devRef .tc main_arg0)) := by rw [← hB, B_v13, a0]
  have b7 : VB (Proc.devRef .tc main_v7) = ReadP.val_main_v7 (F := F) (V (Proc.devRef .tc main_arg0)) := by rw [← hB, B_keep_v7, a7]
  have b0 : VB (Proc.devRef .tc main_arg0) = V (Proc.devRef .tc main_arg0) := by rw [← hB, B_keep_arg0, a0]
  have b1 : VB (Proc.devRef .tc main_arg1) = V (Proc.devRef .tc main_arg1) := by rw [← hB, B_keep_arg1, a1]
  have b2 : VB (Proc.devRef .tc main_arg2) = V (Proc.devRef .tc main_arg2) := by rw [← hB, B_keep_arg2, a2]
  clear hB a7 a0 a1 a2
  generalize hC : after opsC VB = VC
  have c25 : VC (Proc.devRef .tc main_v25) = ReadP.val_main_v25 (F := F) (V (Proc.devRef .tc main_arg0)) := by rw [← hC, C_v25 VB _ b7]
  have c13 : VC (Proc.devRef .tc main_v13) = ReadP.val_main_v13 (F := F) (V (Proc.devRef .tc main_arg0)) := by rw [← hC, C_keep_v13, b13]
  have c0 : VC (Proc.devRef .tc main_arg0) = V (Proc.devRef .tc main_arg0) := by rw [← hC, C_keep_arg0, b0]
  have c1 : VC (Proc.devRef .tc main_arg1) = V (Proc.devRef .tc main_arg1) := by rw [← hC, C_keep_arg1, b1]
  have c2 : VC (Proc.devRef .tc main_arg2) = V (Proc.devRef .tc main_arg2) := by rw [← hC, C_keep_arg2, b2]
  clear hC b13 b7 b0 b1 b2
  generalize hD : after opsD VC = VD
  have d31 : VD (Proc.devRef .tc main_v31) = ReadP.val_main_v31 (F := F) (V (Proc.devRef .tc main_arg0)) := by rw [← hD, D_v31 VC _ c25]
  have d7 : VD (Proc.devRef .tc main_c_7) = ReadP.val_main_c_7 (F := F) := by rw [← hD, D_c_7]
  have d13 : VD (Proc.devRef .tc main_v13) = ReadP.val_main_v13 (F := F) (V (Proc.devRef .tc main_arg0)) := by rw [← hD, D_keep_v13, c13]
  have d0 : VD (Proc.devRef .tc main_arg0) = V (Proc.devRef .tc main_arg0) := by rw [← hD, D_keep_arg0, c0]
  have d1 : VD (Proc.devRef .tc main_arg1) = V (Proc.devRef .tc main_arg1) := by rw [← hD, D_keep_arg1, c1]
  have d2 : VD (Proc.devRef .tc main_arg2) = V (Proc.devRef .tc main_arg2) := by rw [← hD, D_keep_arg2, c2]
  clear hD c25 c13 c0 c1 c2
  generalize hE : after opsE VD = VE
  have e32 : VE (Proc.devRef .tc main_v32) = ReadP.val_main_v32 (F := F) (V (Proc.devRef .tc main_arg0)) := by rw [← hE, E_v32 VD _ d13 d31 d7]
  have e0 : VE (Proc.devRef .tc main_arg0) = V (Proc.devRef .tc main_arg0) := by rw [← hE, E_keep_arg0, d0]
  have e1 : VE (Proc.devRef .tc main_arg1) = V (Proc.devRef .tc main_arg1) := by rw [← hE, E_keep_arg1, d1]
  have e2 : VE (Proc.devRef .tc main_arg2) = V (Proc.devRef .tc main_arg2) := by rw [← hE, E_keep_arg2, d2]
  clear hE d31 d7 d13 d0 d1 d2
  generalize hF : after opsF VE = VF
  have f39 : VF (Proc.devRef .tc main_v39) = ReadP.val_main_v39 (F := F) (V (Proc.devRef .tc main_arg0)) := by rw [← hF, F_v39 VE _ e32]
  have f0 : VF (Proc.devRef .tc main_arg0) = V (Proc.devRef .tc main_arg0) := by rw [← hF, F_keep_arg0, e0]
  have f1 : VF (Proc.devRef .tc main_arg1) = V (Proc.devRef .tc main_arg1) := by rw [← hF, F_keep_arg1, e1]
  have f2 : VF (Proc.devRef .tc main_arg2) = V (Proc.devRef .tc main_arg2) := by rw [← hF, F_keep_arg2, e2]
  clear hF e32 e0 e1 e2
  refine ⟨?_, ?_, ?_, ?_⟩
  · rw [G_v46 VF _ f39, f1, f2]
  · rw [G_keep_arg0, f0]
  · rw [G_keep_arg1, f1]
  · rw [G_keep_arg2, f2]

/-- Every weakly fair execution of the reference program from launch contents `m` terminates with the result buffer at
    the last stage function of the three arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = ReadP.val_main_v46 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨e46, e0, e1, e2⟩ := after_ops (F := F) (launchContents m c)
      exact ⟨(h c main_v46).trans e46, (h c main_arg0).trans e0, (h c main_arg1).trans e1, (h c main_arg2).trans e2⟩)
    (run_seq scopedRefs_eq scopedSems_eq defs main (fun _ => ops) main_eq (fun _ => ops_sub) m ρ)

end Cert.ReferenceIdeal.RunH

end
-- ==== Proof.Segment.lean ====
/-
  A coordinate in the box has a bin in 0..7, and the reference's 32-bit segment number decodes.

  For a real `r` the quotient `(r + 2) / (1/2)` is `2 (r + 2)`; when `-2 ≤ r ≤ 2` it lies in `[0, 8]`, so its floor
  is one of `0, …, 8`, the saturating conversion to 32 bits changes nothing, and the signed minimum with 7 leaves one of
  `0, …, 7`.  With three such bins `a₀, a₁, a₂` and a row `b' < 1024`, the 32-bit number
  `512 b' + (8 (8 a₀ + a₁) + a₂)` is below `2¹⁹`, so no wrap-around happens and it equals `512 b + l` exactly when
  `b' = b` and `(a₀, a₁, a₂)` are the base-8 digits of `l`.  The number `524288 = 1024 · 512` of an invalid point is
  beyond every `512 b + l`.
-/
import proofs.«107436_j28561532518446_1_alg».proof.Proof.Consts
import Mathlib.Tactic.IntervalCases
import Mathlib.Tactic.NormNum
import Mathlib.Tactic.Linarith
import Mathlib.Algebra.Order.Floor.Ring

noncomputable section

namespace Cert.Hist

open Idealize.ShloMosaic

/-- On a real `r` the bin is the floor of `2 (r + 2)`, clamped to the 32-bit range, converted, and capped at 7. -/
theorem bin_coe (r : ℝ) :
    bin (r : EReal)
      = IntOp.minsi (BitVec.ofInt 32 (max (-2147483648) (min 2147483647 ⌊(r + 2) * 2⌋))) 7#32 := by
  have h1 : ((r : EReal) - lo) = (((r + 2 : ℝ)) : EReal) := by
    rw [lo_eq, ← EReal.coe_sub]; congr 1; ring
  have h2 : Ideal.div (((r + 2 : ℝ)) : EReal) width = ((((r + 2) * 2 : ℝ)) : EReal) := by
    rw [width_eq, Ideal.div_coe (by norm_num), ← EReal.coe_mul]; congr 1; norm_num
  unfold bin
  rw [h1, h2, Ideal.liftRound_coe, Ideal.fptosi, Ideal.toIntClamped_coe]
  have h3 : (if (0 : ℝ) ≤ ((⌊(r + 2) * 2⌋ : ℤ) : ℝ) then ⌊((⌊(r + 2) * 2⌋ : ℤ) : ℝ)⌋ else ⌈((⌊(r + 2) * 2⌋ : ℤ) : ℝ)⌉)
      = ⌊(r + 2) * 2⌋ := by
    split_ifs
    · exact Int.floor_intCast _
    · exact Int.ceil_intCast _
  rw [h3]
  norm_num

/-- The capped bin of each of the nine possible floors. -/
theorem minsi_small (z : ℤ) (h0 : 0 ≤ z) (h8 : z ≤ 8) :
    ∃ a : Fin 8, IntOp.minsi (BitVec.ofInt 32 (max (-2147483648) (min 2147483647 z))) 7#32 = BitVec.ofNat 32 a.val := by
  interval_cases z
  · exact ⟨0, by decide⟩
  · exact ⟨1, by decide⟩
  · exact ⟨2, by decide⟩
  · exact ⟨3, by decide⟩
  · exact ⟨4, by decide⟩
  · exact ⟨5, by decide⟩
  · exact ⟨6, by decide⟩
  · exact ⟨7, by decide⟩
  · exact ⟨7, by decide⟩

theorem bin_range (x : EReal) (h : inBox x) : ∃ a : Fin 8, bin x = BitVec.ofNat 32 a.val := by
  obtain ⟨h1, h2⟩ := h
  rw [lo_eq] at h1
  rw [hi_eq] at h2
  induction x using EReal.rec with
  | bot => exact absurd h1 (by simp)
  | top => exact absurd h2 (by simp)
  | coe r =>
    have hr1 : (-2 : ℝ) ≤ r := by exact_mod_cast h1
    have hr2 : r ≤ 2 := by exact_mod_cast h2
    rw [bin_coe]
    apply minsi_small
    · exact Int.floor_nonneg.mpr (by linarith)
    · have : ⌊(r + 2) * 2⌋ ≤ ⌊(8 : ℝ)⌋ := Int.floor_le_floor (by linarith)
      simpa using this

theorem segOf_of_invalid (p : Fin 3 → EReal) (b' : Fin 1024) (h : ¬ validb p = 1#1) : segOf p b' = 524288#32 := by
  unfold segOf Scalar.select
  exact if_neg h

/-- Small naturals are told apart by their 32-bit patterns. -/
theorem ofNat_inj_small {a c : ℕ} (ha : a < 8) (hc : c < 8) : BitVec.ofNat 32 a = BitVec.ofNat 32 c ↔ a = c := by
  constructor
  · intro h
    have h' := congrArg BitVec.toNat h
    rw [BitVec.toNat_ofNat, BitVec.toNat_ofNat] at h'
    omega
  · rintro rfl; rfl

/-- The 32-bit segment arithmetic on a row and three small digits is the natural-number arithmetic. -/
theorem seg_ofNat (B a0 a1 a2 : ℕ) :
    IntOp.addi (IntOp.muli (BitVec.ofNat 32 B) 512#32)
        (IntOp.addi (IntOp.muli (IntOp.addi (IntOp.muli (BitVec.ofNat 32 a0) 8#32) (BitVec.ofNat 32 a1)) 8#32)
          (BitVec.ofNat 32 a2))
      = BitVec.ofNat 32 (B * 512 + ((a0 * 8 + a1) * 8 + a2)) := by
  simp only [IntOp.addi, IntOp.muli, BitVec.ofNat_add, BitVec.ofNat_mul]

/-- A natural below `2³¹` is the signed value of its 32-bit pattern. -/
theorem toInt_ofNat_small (n : ℕ) (h : n < 2147483648) : (BitVec.ofNat 32 n).toInt = (n : ℤ) := by
  rw [BitVec.toInt_eq_toNat_of_lt]
  · rw [BitVec.toNat_ofNat]; congr 1; omega
  · rw [BitVec.toNat_ofNat]; omega

theorem segOf_of_valid_toInt_eq_iff (p : Fin 3 → EReal) (b b' : Fin 1024) (l : Fin 512) (hv : validb p = 1#1)
    (hb : ∀ d, inBox (p d)) :
    (segOf p b').toInt = ((b.val * 512 + l.val : ℕ) : ℤ)
      ↔ (b' = b ∧ bin (p 0) = BitVec.ofNat 32 (colV l).val ∧ bin (p 1) = BitVec.ofNat 32 (colJ l).val
          ∧ bin (p 2) = BitVec.ofNat 32 (colK l).val) := by
  obtain ⟨a0, h0⟩ := bin_range (p 0) (hb 0)
  obtain ⟨a1, h1⟩ := bin_range (p 1) (hb 1)
  obtain ⟨a2, h2⟩ := bin_range (p 2) (hb 2)
  have hseg : segOf p b' = BitVec.ofNat 32 (b'.val * 512 + ((a0.val * 8 + a1.val) * 8 + a2.val)) := by
    have hv' : validb p = 1 := hv
    unfold segOf Scalar.select
    rw [if_pos hv', h0, h1, h2, seg_ofNat]
  have hb' := b'.isLt
  have hbb := b.isLt
  have hl := l.isLt
  have ha0 := a0.isLt
  have ha1 := a1.isLt
  have ha2 := a2.isLt
  rw [hseg, toInt_ofNat_small _ (by omega), h0, h1, h2,
    ofNat_inj_small ha0 (colV l).isLt, ofNat_inj_small ha1 (colJ l).isLt, ofNat_inj_small ha2 (colK l).isLt,
    Fin.ext_iff]
  simp only [colV, colJ, colK]
  omega

theorem segOf_invalid_toInt_ne (p : Fin 3 → EReal) (b b' : Fin 1024) (l : Fin 512) (h : ¬ validb p = 1#1) :
    (segOf p b').toInt ≠ ((b.val * 512 + l.val : ℕ) : ℤ) := by
  rw [segOf_of_invalid p b' h, toInt_ofNat_small _ (by omega)]
  have hbb := b.isLt
  have hl := l.isLt
  omega

end Cert.Hist

end
-- ==== Proof.RefValue.lean ====
/-
  The reference's result, read entry by entry, is the specification.

  Entry (b, c) of the result is the bias of class c plus the contraction over the 512 histogram columns l of the
  scaled histogram entry (b, l) with the weight (c, l).  The histogram is the flat scatter read at element 512 b + l:
  zero plus one for every point whose segment number is 512 b + l.  Point n of row b' carries the segment number
  512 b' + (8 (8 bin0 + bin1) + bin2) when its three coordinates lie in the box and the out-of-range number 524288
  otherwise, so it contributes exactly when b' = b and it is counted in the voxel of column l; summing over the points
  of row b gives the count of the specification, and the quotient by 8192 is the product with 1 / 8192.
-/
import proofs.«107436_j28561532518446_1_alg».proof.Proof.RefRead
import proofs.«107436_j28561532518446_1_alg».proof.Proof.Scatter
import proofs.«107436_j28561532518446_1_alg».proof.Proof.Segment
import proofs.«107436_j28561532518446_1_alg».proof.Proof.Pointwise
import proofs.«107436_j28561532518446_1_alg».proof.Proof.Consts
import Idealize.ShloMosaic.PureOps.Reduce

noncomputable section

open scoped BigOperators

namespace Cert.Hist.RefValue

open Idealize.ShloMosaic Idealize.ShloMosaic.ValueIdx Cert.ReferenceIdeal Cert.ReferenceIdeal.ReadP Cert.Hist

/-! ## One point: its bins, its validity bit, its segment number -/

/-- The capped bin the reference computes at a coordinate is the specification's bin of that coordinate. -/
theorem v7_eq_bin [Facts] (X : (⟨S1024x8192x3, .f32⟩ : BufTy).Contents (Elt Ideal)) (k : S1024x8192x3.Idx) :
    val_main_v7 (F := Ideal) X k = bin (X k) := by
  rw [val_main_v7_apply, val_main_v5_apply, val_main_v4_apply, val_main_v3_apply, val_main_v1_apply, val_main_v0_apply,
    val_main_v2_apply, val_main_v6_apply, val_main_cst_apply, val_main_cst_0_apply, val_main_c_apply]
  rfl

/-- Slice d of the bins, reshaped to rows and points, reads coordinate d of point n of row b. -/
theorem idx14_15 (b : Fin 1024) (n : Fin 8192) : idx_main_v14 (idx_main_v15 (ix2 b n)) = ix3 b n (0 : Fin 3) := by
  have hb := b.isLt; have hn := n.isLt
  funext a
  match a with
  | ⟨0, _⟩ => apply Fin.ext; show (b.val * 8192 + n.val) / 8192 = b.val; omega
  | ⟨1, _⟩ => apply Fin.ext; show (b.val * 8192 + n.val) / 1 % 8192 = n.val; omega
  | ⟨2, _⟩ => rfl

theorem idx18_19 (b : Fin 1024) (n : Fin 8192) : idx_main_v18 (idx_main_v19 (ix2 b n)) = ix3 b n (1 : Fin 3) := by
  have hb := b.isLt; have hn := n.isLt
  funext a
  match a with
  | ⟨0, _⟩ => apply Fin.ext; show (b.val * 8192 + n.val) / 8192 = b.val; omega
  | ⟨1, _⟩ => apply Fin.ext; show (b.val * 8192 + n.val) / 1 % 8192 = n.val; omega
  | ⟨2, _⟩ => rfl

theorem idx23_24 (b : Fin 1024) (n : Fin 8192) : idx_main_v23 (idx_main_v24 (ix2 b n)) = ix3 b n (2 : Fin 3) := by
  have hb := b.isLt; have hn := n.isLt
  funext a
  match a with
  | ⟨0, _⟩ => apply Fin.ext; show (b.val * 8192 + n.val) / 8192 = b.val; omega
  | ⟨1, _⟩ => apply Fin.ext; show (b.val * 8192 + n.val) / 1 % 8192 = n.val; omega
  | ⟨2, _⟩ => rfl

/-- Point (b, n) with coordinate d put back on the reduced axis is (b, n, d). -/
theorem lift_ix3 (h : S1024x8192x3.Reduces [2] S1024x8192) (b : Fin 1024) (n : Fin 8192) (d : Fin (S1024x8192x3.size 2)) :
    h.lift (ix2 b n) d = ix3 b n (⟨d.val, d.isLt⟩ : Fin 3) := by
  funext c; apply Fin.ext
  fin_cases c <;> rfl

/-- The reference's validity bit of point n of row b: the conjunction over its three coordinates. -/
theorem v13_eq_validb [Facts] (X : (⟨S1024x8192x3, .f32⟩ : BufTy).Contents (Elt Ideal)) (b : Fin 1024) (n : Fin 8192) :
    val_main_v13 (F := Ideal) X (ix2 b n) = validb (fun d => X (ix3 b n d)) := by
  have h : S1024x8192x3.Reduces [2] S1024x8192 := by decide
  unfold val_main_v13
  rw [Host.reduce_eq_fold_single IntOp.andi _ _ Facts₀.reducesTo_S1024x8192x3_S1024x8192_d2 h Facts₀.h_S_]
  have hf : (val_main_v12 (F := Ideal) X ∘ h.lift (ix2 b n))
      = fun d : Fin 3 => IntOp.andi (Ideal.cmp .oge (X (ix3 b n d)) lo) (Ideal.cmp .ole (X (ix3 b n d)) hi) := by
    funext d
    show val_main_v12 (F := Ideal) X (h.lift (ix2 b n) d) = _
    rw [lift_ix3 h b n d, val_main_v12_apply, val_main_v9_apply, val_main_v11_apply, val_main_v8_apply, val_main_v10_apply,
      val_main_cst_1_apply, val_main_cst_2_apply]
    rfl
  unfold validb
  exact congrArg (fun f => Finset.fold IntOp.andi (1#1 : BitVec 1) f (Finset.univ : Finset (Fin 3))) hf

/-- The reference's segment number of point n of row b. -/
theorem v32_eq_segOf [Facts] (X : (⟨S1024x8192x3, .f32⟩ : BufTy).Contents (Elt Ideal)) (b : Fin 1024) (n : Fin 8192) :
    val_main_v32 (F := Ideal) X (ix2 b n) = segOf (fun d => X (ix3 b n d)) b := by
  rw [val_main_v32_apply, v13_eq_validb, val_main_v31_apply, val_main_v30_apply, val_main_v29_apply, val_main_v27_apply,
    val_main_v28_apply, val_main_v26_apply, val_main_c_6_apply, val_main_v25_apply, val_main_v22_apply, val_main_v20_apply,
    val_main_v17_apply, val_main_v15_apply, val_main_v14_apply, idx14_15, val_main_v16_apply, val_main_c_4_apply,
    val_main_v19_apply, val_main_v18_apply, idx18_19, val_main_v21_apply, val_main_c_5_apply, val_main_v24_apply,
    val_main_v23_apply, idx23_24, val_main_call0_v1_apply, val_main_call0_v0_apply, val_main_c_7_apply]
  simp only [v7_eq_bin]
  rfl

/-! ## The histogram -/

/-- A point's segment number is 512 b + l exactly when the point is in row b and counted in the voxel of column l. -/
theorem seg_hit_iff (p : Fin 3 → EReal) (b b' : Fin 1024) (l : Fin 512) :
    (segOf p b').toInt = ((b.val * 512 + l.val : ℕ) : ℤ) ↔ b' = b ∧ Hits p (colV l) (colJ l) (colK l) := by
  by_cases hv : validb p = 1#1
  · have hb := (validb_eq_one_iff p).1 hv
    rw [segOf_of_valid_toInt_eq_iff p b b' l hv hb]
    unfold Hits
    constructor
    · rintro ⟨h1, h2⟩; exact ⟨h1, hb, h2⟩
    · rintro ⟨h1, _, h2⟩; exact ⟨h1, h2⟩
  · constructor
    · intro h; exact absurd h (segOf_invalid_toInt_ne p b b' l hv)
    · rintro ⟨_, hH⟩; exact absurd ((validb_eq_one_iff p).2 hH.1) hv

/-- The flat position 8192 b' + n of the index column reads point n of row b'. -/
theorem idx35_37 (b' : Fin 1024) (n : Fin 8192) :
    idx_main_v35 (idx_main_v37 (ix2 (⟨b'.val * 8192 + n.val, by have := b'.isLt; have := n.isLt; omega⟩ : Fin 8388608) (0 : Fin 1)))
      = ix2 b' n := by
  have hb := b'.isLt; have hn := n.isLt
  funext a
  match a with
  | ⟨0, _⟩ => apply Fin.ext; show (b'.val * 8192 + n.val) / 8192 = b'.val; omega
  | ⟨1, _⟩ => apply Fin.ext; show (b'.val * 8192 + n.val) % 8192 = n.val; omega

open Classical in
/-- Element 512 b + l of the scatter's result: how many points of row b are counted in column l. -/
theorem v38_eq_cnt [Facts] (X : (⟨S1024x8192x3, .f32⟩ : BufTy).Contents (Elt Ideal)) (b : Fin 1024) (l : Fin 512) :
    val_main_v38 (F := Ideal) X (ix1 (⟨b.val * 512 + l.val, by have := b.isLt; have := l.isLt; omega⟩ : Fin 524288))
      = cnt (rowPts X b) l := by
  unfold val_main_v38
  rw [Scatter.scatterAdd_apply, Scatter.sum_rows, val_main_v36_apply, val_main_cst_9_apply, Ideal.ofBits_def,
    Ideal.ofBits_zero_f32, zero_add]
  rw [Finset.sum_eq_single b]
  · unfold cnt
    refine Finset.sum_congr rfl fun n _ => ?_
    rw [val_main_v37_apply, val_main_v35_apply, idx35_37, v32_eq_segOf, val_main_v34_apply, val_main_v33_apply,
      val_main_cst_8_apply, Ideal.ofBits_def, ofBits_one]
    unfold hit
    exact if_congr ((seg_hit_iff _ b b l).trans (and_iff_right rfl)) rfl rfl
  · intro b' _ hne
    refine Finset.sum_eq_zero fun n _ => ?_
    rw [val_main_v37_apply, val_main_v35_apply, idx35_37, v32_eq_segOf]
    exact if_neg fun h => hne ((seg_hit_iff _ b b' l).1 h).1
  · intro h; exact absurd (Finset.mem_univ b) h

/-! ## The result -/

theorem ref_eq_G [Facts] (X : (⟨S1024x8192x3, .f32⟩ : BufTy).Contents (Elt Ideal)) (W : (⟨S40x512, .f32⟩ : BufTy).Contents (Elt Ideal))
    (B : (⟨S40, .f32⟩ : BufTy).Contents (Elt Ideal)) :
    ReadP.val_main_v46 (F := Ideal) X W B = Cert.Hist.G X W B := by
  funext i
  obtain ⟨b, c, rfl⟩ : ∃ b c, i = ix2 b c := ⟨i 0, i 1, eq_ix2 i⟩
  rw [val_main_v46_apply, Ideal.addf_def, val_main_v43_apply, val_main_v45_apply, val_main_v44_apply]
  have hB : idx_main_v44 (idx_main_v45 (ix2 b c)) = ix1 c := by
    funext a
    match a with
    | ⟨0, _⟩ => rfl
  rw [hB]
  show _ = (∑ l : Fin 512, (cnt (rowPts X b) l * invN) * W (ix2 c l)) + B (ix1 c)
  refine congrArg (fun t => t + B (ix1 c)) (Finset.sum_congr rfl fun l _ => ?_)
  have hW : idx_main_v42 (ridx_main_v43 (ix2 b c) l) = ix2 c l := by
    funext a
    match a with
    | ⟨0, _⟩ => rfl
    | ⟨1, _⟩ => rfl
  have hH : idx_main_v39 (lidx_main_v43 (ix2 b c) l)
      = ix1 (⟨b.val * 512 + l.val, by have := b.isLt; have := l.isLt; omega⟩ : Fin 524288) := by
    funext a
    match a with
    | ⟨0, _⟩ => rfl
  rw [val_main_v42_apply, hW, val_main_v41_apply, Ideal.hostDivf_def, val_main_v40_apply, val_main_cst_10_apply,
    Ideal.ofBits_def, div_N, val_main_v39_apply, hH, v38_eq_cnt]

end Cert.Hist.RefValue

end
-- ==== Proof.lean ====
/-
  The certificate of the voxel histogram classifier against its reference.

  Both programs compute one function `G` of the point cloud, the weights and the bias (Proof/Spec.lean): for every batch
  row the number of its points counted in each of the 512 voxels, scaled by `2⁻¹³`, contracted with each class's
  weights, plus the class's bias.  The kernel accumulates the counts tile by tile as products of one-hot rows summed by
  the matrix unit (Proof/Tile.lean, Proof/KernelAcc.lean) and finishes a row tile at its last grid point
  (Proof/Final.lean, Proof/KernelValue.lean); the reference scatters a one for every valid point into a flat histogram
  addressed by `512 b + voxel`, divides by `8192` and multiplies by the transposed weights (Proof/RefValue.lean).  A
  point is counted by the kernel's product of indicators exactly when the reference's segment number addresses its
  voxel (Proof/Pointwise.lean, Proof/Segment.lean), and dividing by `8192` is multiplying by `2⁻¹³` on every extended
  real (Proof/Consts.lean); no other law is needed, so the precondition is never opened.
-/
import proofs.«107436_j28561532518446_1_alg».proof.Defs
import proofs.«107436_j28561532518446_1_alg».proof.Proof.Gen.Kernel
import proofs.«107436_j28561532518446_1_alg».proof.Proof.Gen.Kernel.Skeleton
import proofs.«107436_j28561532518446_1_alg».proof.Proof.Gen.Kernel.Launch
import proofs.«107436_j28561532518446_1_alg».proof.Proof.Gen.Kernel.Points
import proofs.«107436_j28561532518446_1_alg».proof.Proof.Gen.Kernel.Frame
import proofs.«107436_j28561532518446_1_alg».proof.Proof.Gen.KernelIdeal
import proofs.«107436_j28561532518446_1_alg».proof.Proof.Gen.KernelIdeal.Skeleton
import proofs.«107436_j28561532518446_1_alg».proof.Proof.Gen.KernelIdeal.Launch
import proofs.«107436_j28561532518446_1_alg».proof.Proof.Gen.KernelIdeal.Points
import proofs.«107436_j28561532518446_1_alg».proof.Proof.Gen.KernelIdeal.Frame
import proofs.«107436_j28561532518446_1_alg».proof.Proof.Gen.KernelIdeal.Value
import proofs.«107436_j28561532518446_1_alg».proof.Proof.Gen.ReferenceIdeal
import proofs.«107436_j28561532518446_1_alg».proof.Proof.Gen.Pre_finite_inputs
import proofs.«107436_j28561532518446_1_alg».proof.Proof.KernelValue
import proofs.«107436_j28561532518446_1_alg».proof.Proof.RefRun
import proofs.«107436_j28561532518446_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: it runs, and no operation writes an argument. -/
theorem frame_ri : Cert.frame_ReferenceIdeal := fun m ρ _ =>
  (θ_run Cert.ReferenceIdeal.defs _ _).mono (fun _ h c => (h c).2) (Cert.ReferenceIdeal.RunH.run (F := Ideal) m ρ)

/-- Both runs end with the result at `G` of the arguments, which agree. -/
theorem algebraic : Cert.algebraic_KernelIdeal_ReferenceIdeal := by
  intro m ρ m' ρ' _ hagree
  refine ⟨_, Cert.Hist.KernelValue.run m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2]
  exact Cert.Hist.RefValue.ref_eq_G _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
